-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v6)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v6) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v6) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S128x512x14x14 : Shape := ⟨4, ![128, 512, 14, 14]⟩
abbrev S512x32 : Shape := ⟨2, ![512, 32]⟩
abbrev S32 : Shape := ⟨1, ![32]⟩
abbrev S32x512 : Shape := ⟨2, ![32, 512]⟩
abbrev S512 : Shape := ⟨1, ![512]⟩
abbrev S_ : Shape := ⟨0, ![]⟩

class Facts : Prop where
  bcast_S_S128x512x14x14 : S_.BroadcastsInDim S128x512x14x14 (![] : Fin 0 → Fin S128x512x14x14.rank)
  reducesTo_S128x512x14x14_S_d0_1_2_3 : S128x512x14x14.ReducesTo [0, 1, 2, 3] S_
  h_S_ : 0 < S_.numel
  bcast_S_S512x32 : S_.BroadcastsInDim S512x32 (![] : Fin 0 → Fin S512x32.rank)
  reducesTo_S512x32_S_d0_1 : S512x32.ReducesTo [0, 1] S_
  bcast_S_S32 : S_.BroadcastsInDim S32 (![] : Fin 0 → Fin S32.rank)
  reducesTo_S32_S_d0 : S32.ReducesTo [0] S_
  bcast_S_S32x512 : S_.BroadcastsInDim S32x512 (![] : Fin 0 → Fin S32x512.rank)
  reducesTo_S32x512_S_d0_1 : S32x512.ReducesTo [0, 1] S_
  bcast_S_S512 : S_.BroadcastsInDim S512 (![] : Fin 0 → Fin S512.rank)
  reducesTo_S512_S_d0 : S512.ReducesTo [0] S_

variable [Facts]

def fn_part1 {F : FTy → Type} [FloatOps F] (main_arg4 : FVec F S512 .f32) (main_v13 : IVec S_ 1) (main_v16 : IVec S32x512 1) : IVec S_ 1 :=
  let main_c_5 : IVec S_ 1 := constantI S_ 1 1#1
  let main_v17 : IVec S_ 1 := (fun x v => Host.reduce IntOp.andi x v reducesTo_S32x512_S_d0_1 h_S_) main_v16 main_c_5
  let main_v18 : IVec S_ 1 := andi main_v13 main_v17
  let main_v19 : FVec F S512 .f32 := Host.absf main_arg4
  let main_cst_6 : FVec F S_ .f32 := constant S_ .f32 0x7F800000#32
  let main_v20 : FVec F S512 .f32 := broadcastInDim S512 ![] bcast_S_S512 main_cst_6
  let main_v21 : IVec S512 1 := cmpf .olt main_v19 main_v20
  let main_c_7 : IVec S_ 1 := constantI S_ 1 1#1
  let main_v22 : IVec S_ 1 := (fun x v => Host.reduce IntOp.andi x v reducesTo_S512_S_d0 h_S_) main_v21 main_c_7
  let main_v23 : IVec S_ 1 := andi main_v18 main_v22
  main_v23

def fn {F : FTy → Type} [FloatOps F] (main_arg0 : FVec F S128x512x14x14 .f32) (main_arg1 : FVec F S512x32 .f32) (main_arg2 : FVec F S32 .f32) (main_arg3 : FVec F S32x512 .f32) (main_arg4 : FVec F S512 .f32) : IVec S_ 1 :=
  let main_v0 : FVec F S128x512x14x14 .f32 := Host.absf main_arg0
  let main_cst : FVec F S_ .f32 := constant S_ .f32 0x7F800000#32
  let main_v1 : FVec F S128x512x14x14 .f32 := broadcastInDim S128x512x14x14 ![] bcast_S_S128x512x14x14 main_cst
  let main_v2 : IVec S128x512x14x14 1 := cmpf .olt main_v0 main_v1
  let main_c : IVec S_ 1 := constantI S_ 1 1#1
  let main_v3 : IVec S_ 1 := (fun x v => Host.reduce IntOp.andi x v reducesTo_S128x512x14x14_S_d0_1_2_3 h_S_) main_v2 main_c
  let main_v4 : FVec F S512x32 .f32 := Host.absf main_arg1
  let main_cst_0 : FVec F S_ .f32 := constant S_ .f32 0x7F800000#32
  let main_v5 : FVec F S512x32 .f32 := broadcastInDim S512x32 ![] bcast_S_S512x32 main_cst_0
  let main_v6 : IVec S512x32 1 := cmpf .olt main_v4 main_v5
  let main_c_1 : IVec S_ 1 := constantI S_ 1 1#1
  let main_v7 : IVec S_ 1 := (fun x v => Host.reduce IntOp.andi x v reducesTo_S512x32_S_d0_1 h_S_) main_v6 main_c_1
  let main_v8 : IVec S_ 1 := andi main_v3 main_v7
  let main_v9 : FVec F S32 .f32 := Host.absf main_arg2
  let main_cst_2 : FVec F S_ .f32 := constant S_ .f32 0x7F800000#32
  let main_v10 : FVec F S32 .f32 := broadcastInDim S32 ![] bcast_S_S32 main_cst_2
  let main_v11 : IVec S32 1 := cmpf .olt main_v9 main_v10
  let main_c_3 : IVec S_ 1 := constantI S_ 1 1#1
  let main_v12 : IVec S_ 1 := (fun x v => Host.reduce IntOp.andi x v reducesTo_S32_S_d0 h_S_) main_v11 main_c_3
  let main_v13 : IVec S_ 1 := andi main_v8 main_v12
  let main_v14 : FVec F S32x512 .f32 := Host.absf main_arg3
  let main_cst_4 : FVec F S_ .f32 := constant S_ .f32 0x7F800000#32
  let main_v15 : FVec F S32x512 .f32 := broadcastInDim S32x512 ![] bcast_S_S32x512 main_cst_4
  let main_v16 : IVec S32x512 1 := cmpf .olt main_v14 main_v15
  fn_part1 (F := F) main_arg4 main_v13 main_v16
-- ==== Kernel.lean ====
abbrev S128x512x14x14 : Shape := ⟨4, ![128, 512, 14, 14]⟩
abbrev S512x32 : Shape := ⟨2, ![512, 32]⟩
abbrev S32 : Shape := ⟨1, ![32]⟩
abbrev S32x512 : Shape := ⟨2, ![32, 512]⟩
abbrev S512 : Shape := ⟨1, ![512]⟩
abbrev S14x14x128x512 : Shape := ⟨4, ![14, 14, 128, 512]⟩
abbrev S196x128x512 : Shape := ⟨3, ![196, 128, 512]⟩
abbrev S1x32 : Shape := ⟨2, ![1, 32]⟩
abbrev S1x512 : Shape := ⟨2, ![1, 512]⟩
abbrev S196x32x512 : Shape := ⟨3, ![196, 32, 512]⟩
abbrev S32x32 : Shape := ⟨2, ![32, 32]⟩
abbrev S1x32x512 : Shape := ⟨3, ![1, 32, 512]⟩

abbrev nBuf : Space → Nat
  | .hbm => 12
  | .vmem => 8
  | .smem => 0
  | _ => 0

abbrev bufTy : (tb : Table) → Fin (tcTables nBuf tb) → BufTy
  | .hbm, ⟨0, _⟩ => ⟨S128x512x14x14, .f32⟩
  | .hbm, ⟨1, _⟩ => ⟨S512x32, .f32⟩
  | .hbm, ⟨2, _⟩ => ⟨S32, .f32⟩
  | .hbm, ⟨3, _⟩ => ⟨S32x512, .f32⟩
  | .hbm, ⟨4, _⟩ => ⟨S512, .f32⟩
  | .hbm, ⟨5, _⟩ => ⟨S14x14x128x512, .f32⟩
  | .hbm, ⟨6, _⟩ => ⟨S196x128x512, .f32⟩
  | .hbm, ⟨7, _⟩ => ⟨S1x32, .f32⟩
  | .hbm, ⟨8, _⟩ => ⟨S1x512, .f32⟩
  | .hbm, ⟨9, _⟩ => ⟨S196x128x512, .f32⟩
  | .hbm, ⟨10, _⟩ => ⟨S14x14x128x512, .f32⟩
  | .hbm, ⟨11, _⟩ => ⟨S128x512x14x14, .f32⟩
  | .local _ .vmem, ⟨0, _⟩ => ⟨S196x32x512, .f32⟩
  | .local _ .vmem, ⟨1, _⟩ => ⟨S196x32x512, .f32⟩
  | .local _ .vmem, ⟨2, _⟩ => ⟨S512x32, .f32⟩
  | .local _ .vmem, ⟨3, _⟩ => ⟨S1x32, .f32⟩
  | .local _ .vmem, ⟨4, _⟩ => ⟨S32x512, .f32⟩
  | .local _ .vmem, ⟨5, _⟩ => ⟨S1x512, .f32⟩
  | .local _ .vmem, ⟨6, _⟩ => ⟨S196x32x512, .f32⟩
  | .local _ .vmem, ⟨7, _⟩ => ⟨S196x32x512, .f32⟩
  | _, _ => ⟨S128x512x14x14, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7

abbrev nD : Nat := 1
abbrev τ : Topo := Topo.v7x

variable {F : FTy → Type} [FloatOps F]

abbrev grid0 : Pipeline.Grid := ⟨1, ![4], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

abbrev stage0_0 : Fin 2 → Memref sig .tc .vmem S196x32x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S512x32 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x32 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S32x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S196x32x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

class Facts₀ : Prop where
  transposes_S128x512x14x14_S14x14x128x512_2_3_0_1 : S128x512x14x14.Transposes [2, 3, 0, 1] S14x14x128x512
  shapeCasts_S14x14x128x512_S196x128x512 : S14x14x128x512.ShapeCasts S196x128x512
  shapeCasts_S32_S1x32 : S32.ShapeCasts S1x32
  shapeCasts_S512_S1x512 : S512.ShapeCasts S1x512
  inb_S196x32x512_S196x32x512_0_0_0 : ∀ a, (![0, 0, 0] : Fin 3 → Nat) a + S196x32x512.size a ≤ S196x32x512.size a
  h_S196x32x512 : 0 < S196x32x512.numel
  shapeCasts_S196x32x512_S196x32x512 : S196x32x512.ShapeCasts S196x32x512
  reduces_S196x32x512_S32x512 : S196x32x512.Reduces [0] S32x512
  inb_S512x32_S512x32_0_0 : ∀ a, (![0, 0] : Fin 2 → Nat) a + S512x32.size a ≤ S512x32.size a
  h_S512x32 : 0 < S512x32.numel
  inb_S1x32_S1x32_0_0 : ∀ a, (![0, 0] : Fin 2 → Nat) a + S1x32.size a ≤ S1x32.size a
  h_S1x32 : 0 < S1x32.numel
  shapeCasts_S1x32_S1x32 : S1x32.ShapeCasts S1x32
  broadcasts_S1x32_S32x32 : S1x32.Broadcasts S32x32
  inb_S32x512_S32x512_0_0 : ∀ a, (![0, 0] : Fin 2 → Nat) a + S32x512.size a ≤ S32x512.size a
  h_S32x512 : 0 < S32x512.numel
  inb_S1x512_S1x512_0_0 : ∀ a, (![0, 0] : Fin 2 → Nat) a + S1x512.size a ≤ S1x512.size a
  h_S1x512 : 0 < S1x512.numel
  shapeCasts_S1x512_S1x512 : S1x512.ShapeCasts S1x512
  broadcasts_S1x512_S32x512 : S1x512.Broadcasts S32x512
  shapeCasts_S32x512_S1x32x512 : S32x512.ShapeCasts S1x32x512
  broadcasts_S1x32x512_S196x32x512 : S1x32x512.Broadcasts S196x32x512
  shapeCasts_S196x128x512_S14x14x128x512 : S196x128x512.ShapeCasts S14x14x128x512
  transposes_S14x14x128x512_S128x512x14x14_2_3_0_1 : S14x14x128x512.Transposes [2, 3, 0, 1] S128x512x14x14
  dot_S32x512_S512x32_S32x32_1_0_0_1_n_n_wf : DotDims.WF S32x512 S512x32 S32x32 [1] [0] [0] [1] [] []
  dot_S32x32_S32x512_S32x512_1_0_0_1_n_n_wf : DotDims.WF S32x32 S32x512 S32x512 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S196x32x512.size a ≤ S196x128x512.size a
  hwx0_0 : ∀ i : grid0.Coords, EltTy.bits .f32 = 32 ∨ (Rect.block (s := S196x128x512) S196x32x512.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S512x32.size a ≤ S512x32.size a
  hwx0_1 : ∀ i : grid0.Coords, EltTy.bits .f32 = 32 ∨ (Rect.block (s := S512x32) S512x32.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x32.size a ≤ S1x32.size a
  hwx0_2 : ∀ i : grid0.Coords, EltTy.bits .f32 = 32 ∨ (Rect.block (s := S1x32) S1x32.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S32x512.size a ≤ S32x512.size a
  hwx0_3 : ∀ i : grid0.Coords, EltTy.bits .f32 = 32 ∨ (Rect.block (s := S32x512) S32x512.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x512.size a ≤ S1x512.size a
  hwx0_4 : ∀ i : grid0.Coords, EltTy.bits .f32 = 32 ∨ (Rect.block (s := S1x512) S1x512.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S196x32x512.size a ≤ S196x128x512.size a
  hwx0_5 : ∀ i : grid0.Coords, EltTy.bits .f32 = 32 ∨ (Rect.block (s := S196x128x512) S196x32x512.size (cc0_transform_5 i) (hinb0_5 i)).WholeWords (EltTy.packing .f32)

variable [Facts₀]

def dot_S32x512_S512x32_S32x32_1_0_0_1_n_n : DotDims S32x512 S512x32 S32x32 where
  lhsContracting := [1]
  rhsContracting := [0]
  lhsNonContracting := [0]
  rhsNonContracting := [1]
  lhsBatch := []
  rhsBatch := []
  wf := dot_S32x512_S512x32_S32x32_1_0_0_1_n_n_wf
def dot_S32x32_S32x512_S32x512_1_0_0_1_n_n : DotDims S32x32 S32x512 S32x512 where
  lhsContracting := [1]
  rhsContracting := [0]
  lhsNonContracting := [0]
  rhsNonContracting := [1]
  lhsBatch := []
  rhsBatch := []
  wf := dot_S32x32_S32x512_S32x512_1_0_0_1_n_n_wf

abbrev win0_0 : Pipeline.Window sig grid0 :=
  Pipeline.Window.ofSpec (Memref.whole main_v1) S196x32x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S512x32.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v2) S1x32.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S32x512.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v3) S1x512.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v4) S196x32x512.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

class Facts : Prop extends Facts₀ where

variable [Facts]
-- ==== ReferenceIdeal.lean ====
abbrev S128x512x14x14 : Shape := ⟨4, ![128, 512, 14, 14]⟩
abbrev S512x32 : Shape := ⟨2, ![512, 32]⟩
abbrev S32 : Shape := ⟨1, ![32]⟩
abbrev S32x512 : Shape := ⟨2, ![32, 512]⟩
abbrev S512 : Shape := ⟨1, ![512]⟩
abbrev S128x512x196 : Shape := ⟨3, ![128, 512, 196]⟩
abbrev S_ : Shape := ⟨0, ![]⟩
abbrev S128x512x256 : Shape := ⟨3, ![128, 512, 256]⟩
abbrev S1x32 : Shape := ⟨2, ![1, 32]⟩
abbrev S1x512 : Shape := ⟨2, ![1, 512]⟩
abbrev S8x512x256 : Shape := ⟨3, ![8, 512, 256]⟩
abbrev S8x512 : Shape := ⟨2, ![8, 512]⟩
abbrev S8x32 : Shape := ⟨2, ![8, 32]⟩
abbrev S8x512x1 : Shape := ⟨3, ![8, 512, 1]⟩

abbrev nBuf : Space → Nat
  | .hbm => 14
  | .vmem => 8
  | .smem => 0
  | _ => 0

abbrev bufTy : (tb : Table) → Fin (tcTables nBuf tb) → BufTy
  | .hbm, ⟨0, _⟩ => ⟨S128x512x14x14, .f32⟩
  | .hbm, ⟨1, _⟩ => ⟨S512x32, .f32⟩
  | .hbm, ⟨2, _⟩ => ⟨S32, .f32⟩
  | .hbm, ⟨3, _⟩ => ⟨S32x512, .f32⟩
  | .hbm, ⟨4, _⟩ => ⟨S512, .f32⟩
  | .hbm, ⟨5, _⟩ => ⟨S128x512x196, .f32⟩
  | .hbm, ⟨6, _⟩ => ⟨S_, .i32⟩
  | .hbm, ⟨7, _⟩ => ⟨S_, .f32⟩
  | .hbm, ⟨8, _⟩ => ⟨S128x512x256, .f32⟩
  | .hbm, ⟨9, _⟩ => ⟨S1x32, .f32⟩
  | .hbm, ⟨10, _⟩ => ⟨S1x512, .f32⟩
  | .hbm, ⟨11, _⟩ => ⟨S128x512x256, .f32⟩
  | .hbm, ⟨12, _⟩ => ⟨S128x512x196, .f32⟩
  | .hbm, ⟨13, _⟩ => ⟨S128x512x14x14, .f32⟩
  | .local _ .vmem, ⟨0, _⟩ => ⟨S8x512x256, .f32⟩
  | .local _ .vmem, ⟨1, _⟩ => ⟨S8x512x256, .f32⟩
  | .local _ .vmem, ⟨2, _⟩ => ⟨S512x32, .f32⟩
  | .local _ .vmem, ⟨3, _⟩ => ⟨S1x32, .f32⟩
  | .local _ .vmem, ⟨4, _⟩ => ⟨S32x512, .f32⟩
  | .local _ .vmem, ⟨5, _⟩ => ⟨S1x512, .f32⟩
  | .local _ .vmem, ⟨6, _⟩ => ⟨S8x512x256, .f32⟩
  | .local _ .vmem, ⟨7, _⟩ => ⟨S8x512x256, .f32⟩
  | _, _ => ⟨S128x512x14x14, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_c : Ref sig .tc := ⟨.hbm, 6, rfl⟩
abbrev main_call0_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7

abbrev nD : Nat := 1
abbrev τ : Topo := Topo.v7x

variable {F : FTy → Type} [FloatOps F]

abbrev grid0 : Pipeline.Grid := ⟨1, ![16], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S8x512x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S512x32 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x32 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S32x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S8x512x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

class Facts₀ : Prop where
  shapeCasts_S128x512x14x14_S128x512x196 : S128x512x14x14.ShapeCasts S128x512x196
  pads_S128x512x196_S128x512x256_000_000_0600 : S128x512x196.Pads (![0, 0, 0] : Fin 3 → Nat) ![0, 0, 60] ![0, 0, 0] S128x512x256
  h_S_ : 0 < S_.numel
  shapeCasts_S32_S1x32 : S32.ShapeCasts S1x32
  shapeCasts_S512_S1x512 : S512.ShapeCasts S1x512
  inb_S8x512x256_S8x512x256_0_0_0 : ∀ a, (![0, 0, 0] : Fin 3 → Nat) a + S8x512x256.size a ≤ S8x512x256.size a
  h_S8x512x256 : 0 < S8x512x256.numel
  shapeCasts_S8x512x256_S8x512x256 : S8x512x256.ShapeCasts S8x512x256
  reduces_S8x512x256_S8x512 : S8x512x256.Reduces [2] S8x512
  inb_S512x32_S512x32_0_0 : ∀ a, (![0, 0] : Fin 2 → Nat) a + S512x32.size a ≤ S512x32.size a
  h_S512x32 : 0 < S512x32.numel
  inb_S1x32_S1x32_0_0 : ∀ a, (![0, 0] : Fin 2 → Nat) a + S1x32.size a ≤ S1x32.size a
  h_S1x32 : 0 < S1x32.numel
  shapeCasts_S1x32_S1x32 : S1x32.ShapeCasts S1x32
  broadcasts_S1x32_S8x32 : S1x32.Broadcasts S8x32
  inb_S32x512_S32x512_0_0 : ∀ a, (![0, 0] : Fin 2 → Nat) a + S32x512.size a ≤ S32x512.size a
  h_S32x512 : 0 < S32x512.numel
  inb_S1x512_S1x512_0_0 : ∀ a, (![0, 0] : Fin 2 → Nat) a + S1x512.size a ≤ S1x512.size a
  h_S1x512 : 0 < S1x512.numel
  shapeCasts_S1x512_S1x512 : S1x512.ShapeCasts S1x512
  broadcasts_S1x512_S8x512 : S1x512.Broadcasts S8x512
  shapeCasts_S8x512_S8x512x1 : S8x512.ShapeCasts S8x512x1
  broadcasts_S8x512x1_S8x512x256 : S8x512x1.Broadcasts S8x512x256
  slices_S128x512x256_S128x512x196_0_0_0 : S128x512x256.Slices ![0, 0, 0] S128x512x196
  shapeCasts_S128x512x196_S128x512x14x14 : S128x512x196.ShapeCasts S128x512x14x14
  dot_S8x512_S512x32_S8x32_1_0_0_1_n_n_wf : DotDims.WF S8x512 S512x32 S8x32 [1] [0] [0] [1] [] []
  dot_S8x32_S32x512_S8x512_1_0_0_1_n_n_wf : DotDims.WF S8x32 S32x512 S8x512 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S8x512x256.size a ≤ S128x512x256.size a
  hwx0_0 : ∀ i : grid0.Coords, EltTy.bits .f32 = 32 ∨ (Rect.block (s := S128x512x256) S8x512x256.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S512x32.size a ≤ S512x32.size a
  hwx0_1 : ∀ i : grid0.Coords, EltTy.bits .f32 = 32 ∨ (Rect.block (s := S512x32) S512x32.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x32.size a ≤ S1x32.size a
  hwx0_2 : ∀ i : grid0.Coords, EltTy.bits .f32 = 32 ∨ (Rect.block (s := S1x32) S1x32.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S32x512.size a ≤ S32x512.size a
  hwx0_3 : ∀ i : grid0.Coords, EltTy.bits .f32 = 32 ∨ (Rect.block (s := S32x512) S32x512.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x512.size a ≤ S1x512.size a
  hwx0_4 : ∀ i : grid0.Coords, EltTy.bits .f32 = 32 ∨ (Rect.block (s := S1x512) S1x512.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S8x512x256.size a ≤ S128x512x256.size a
  hwx0_5 : ∀ i : grid0.Coords, EltTy.bits .f32 = 32 ∨ (Rect.block (s := S128x512x256) S8x512x256.size (cc0_transform_5 i) (hinb0_5 i)).WholeWords (EltTy.packing .f32)

variable [Facts₀]

def dot_S8x512_S512x32_S8x32_1_0_0_1_n_n : DotDims S8x512 S512x32 S8x32 where
  lhsContracting := [1]
  rhsContracting := [0]
  lhsNonContracting := [0]
  rhsNonContracting := [1]
  lhsBatch := []
  rhsBatch := []
  wf := dot_S8x512_S512x32_S8x32_1_0_0_1_n_n_wf
def dot_S8x32_S32x512_S8x512_1_0_0_1_n_n : DotDims S8x32 S32x512 S8x512 where
  lhsContracting := [1]
  rhsContracting := [0]
  lhsNonContracting := [0]
  rhsNonContracting := [1]
  lhsBatch := []
  rhsBatch := []
  wf := dot_S8x32_S32x512_S8x512_1_0_0_1_n_n_wf

abbrev win0_0 : Pipeline.Window sig grid0 :=
  Pipeline.Window.ofSpec (Memref.whole main_v1) S8x512x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S512x32.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v2) S1x32.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S32x512.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v3) S1x512.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v4) S8x512x256.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

class Facts : Prop extends Facts₀ where

variable [Facts]
-- ==== Proof.Spec.lean ====
/- The squeeze-and-excite block as one function of the argument arrays, on the extended reals.

   For a sample n and channel c the spatial plane x[n, c, ·, ·] is summed (196 entries) and scaled by the binary
   constant nearest 1/196; the 512 pooled values of sample n go through a 512 → 32 linear map with bias and a
   clamp at zero, then a 32 → 512 linear map with bias and the logistic function: that is the GATE of (n, c).
   The result is x[n, c, h, w] times the gate of (n, c).

   The gate is stated over an abstract family P of 512 pooled sums, so that one block of samples laid out
   [position, sample, channel] and one laid out [sample, channel, position] both compute it.  Also here: a sum over
   256 positions of which only the first 196 are not zero is the sum over those 196. -/
import Idealize.ShloMosaic.PureOps.Ideal
import Idealize.ShloMosaic.Lib.ValueIdx

noncomputable section

open scoped BigOperators

namespace Cert.SqEx

open Idealize.ShloMosaic Idealize.ShloMosaic.ValueIdx

abbrev SX : Shape := ⟨4, ![128, 512, 14, 14]⟩
abbrev SW1 : Shape := ⟨2, ![512, 32]⟩
abbrev SW2 : Shape := ⟨2, ![32, 512]⟩
abbrev SB1 : Shape := ⟨1, ![32]⟩
abbrev SB2 : Shape := ⟨1, ![512]⟩

/-- The binary constant both programs scale the pooled sum by (nearest single-precision value to 1/196); never
    evaluated: both sides carry the same word. -/
abbrev invHW : EReal := Ideal.ofBits .f32 0x3BA72F05#32
/-- The clamp's floor, the zero word. -/
abbrev zeroW : EReal := Ideal.ofBits .f32 0x00000000#32

/-- The gate of channel c from the 512 pooled sums P of one sample: logistic (W2ᵀ · max (W1ᵀ · (P · invHW) + b1, 0) + b2) at c. -/
def gate (P : Fin 512 → EReal) (w1 : SW1.Idx → EReal) (b1 : Fin 32 → EReal) (w2 : SW2.Idx → EReal) (b2 : Fin 512 → EReal)
    (c : Fin 512) : EReal :=
  Ideal.logistic ((∑ r : Fin 32, max ((∑ c' : Fin 512, (P c' * invHW) * w1 (ix2 c' r)) + b1 r) zeroW * w2 (ix2 r c)) + b2 c)

/-- Row of spatial position k in the 14 × 14 plane. -/
def prow (k : Fin 196) : Fin 14 := ⟨k.val / 14, by have := k.isLt; omega⟩
/-- Column of spatial position k in the 14 × 14 plane. -/
def pcol (k : Fin 196) : Fin 14 := ⟨k.val % 14, Nat.mod_lt _ (by decide)⟩

/-- The pooled sum of sample n, channel c: the sum of its 196 spatial entries, in row-major order of the plane. -/
def pool (x : SX.Idx → EReal) (n : Fin 128) (c : Fin 512) : EReal :=
  ∑ k : Fin 196, x (ix4 n c (prow k) (pcol k))

/-- The block's result: every entry times the gate of its sample and channel. -/
def out (x : SX.Idx → EReal) (w1 : SW1.Idx → EReal) (b1 : SB1.Idx → EReal) (w2 : SW2.Idx → EReal) (b2 : SB2.Idx → EReal) :
    SX.Idx → EReal :=
  fun i => x i * gate (pool x (i 0)) w1 (fun r => b1 (ix1 r)) w2 (fun c => b2 (ix1 c)) (i 1)

theorem out_apply (x : SX.Idx → EReal) (w1 : SW1.Idx → EReal) (b1 : SB1.Idx → EReal) (w2 : SW2.Idx → EReal) (b2 : SB2.Idx → EReal)
    (n : Fin 128) (c : Fin 512) (h w : Fin 14) :
    out x w1 b1 w2 b2 (ix4 n c h w) = x (ix4 n c h w) * gate (pool x n) w1 (fun r => b1 (ix1 r)) w2 (fun c => b2 (ix1 c)) c := rfl

/-- Position 14 h + w of the plane has row h and column w. -/
theorem prow_mk (h w : Fin 14) (hk : h.val * 14 + w.val < 196) : prow ⟨h.val * 14 + w.val, hk⟩ = h :=
  Fin.ext (by have := w.isLt; show (h.val * 14 + w.val) / 14 = h.val; omega)
theorem pcol_mk (h w : Fin 14) (hk : h.val * 14 + w.val < 196) : pcol ⟨h.val * 14 + w.val, hk⟩ = w :=
  Fin.ext (by have := w.isLt; show (h.val * 14 + w.val) % 14 = w.val; omega)

/-- A family over 256 positions that vanishes from position 196 on sums to the sum of its first 196 entries. -/
theorem sum_256_eq_sum_196 (f : Fin 256 → EReal) (hz : ∀ k : Fin 256, 196 ≤ k.val → f k = 0) :
    ∑ k : Fin 256, f k = ∑ k : Fin 196, f ⟨k.val, by have := k.isLt; omega⟩ := by
  have h := Fin.sum_univ_add (a := 196) (b := 60) (fun k : Fin (196 + 60) => f ⟨k.val, k.isLt⟩)
  have e : (∑ k : Fin 256, f k) = ∑ k : Fin (196 + 60), f ⟨k.val, k.isLt⟩ := rfl
  rw [e, h]
  have hzero : (∑ k : Fin 60, f ⟨(Fin.natAdd 196 k).val, (Fin.natAdd 196 k).isLt⟩) = 0 :=
    Finset.sum_eq_zero fun k _ => hz _ (by show 196 ≤ 196 + k.val; omega)
  rw [hzero, add_zero]
  rfl

end Cert.SqEx

end
-- ==== Proof.LibDotPlain.lean ====
/- A matrix product read at one index, for dimension numbers with no batch axis and one contracted axis.

   Two arrangements: rows times columns (the left operand's second axis against the right operand's first), and
   the transposed-left product (both operands' first axes contracted: the left operand's columns index the result's
   rows). In both the contraction index is one coordinate, and the sum over it is a sum over that coordinate. The
   kernel's product into a zero accumulator and the host's product are that same sum. -/
import Idealize.ShloMosaic.PureOps.Ideal
import Idealize.ShloMosaic.PureOps.Ideal.Laws
import Idealize.ShloMosaic.Lib.ValueIdx

noncomputable section

namespace Cert.DotPlain

open Idealize.ShloMosaic Idealize.ShloMosaic.ValueIdx
open scoped BigOperators

/-! ## One contracted axis, no batch axis: the contraction shape and the operand coordinates -/

/-- A list that is a singleton has its one element at position 0. -/
theorem getElem_zero_of_eq_singleton {α : Type} {l : List α} {c : α} (h : l = [c]) (hp : 0 < l.length) : l[0] = c := by
  subst h; rfl

/-- With one contracted axis the contraction shape has one axis. -/
theorem contr_rank_one {sl sr so : Shape} (d : DotDims sl sr so) {c : Fin sl.rank} (hlc : d.lhsContracting = [c]) :
    d.contr.rank = 1 := by
  rw [d.rank_contr, hlc]; rfl

/-- That one axis has the extent of the left operand's contracted axis. -/
theorem contr_size_zero {sl sr so : Shape} (d : DotDims sl sr so) {c : Fin sl.rank} (hlc : d.lhsContracting = [c]) :
    d.contr.size ⟨0, by rw [contr_rank_one d hlc]; exact Nat.one_pos⟩ = sl.size c := by
  have hp : 0 < d.lhsContracting.length := by rw [hlc]; exact Nat.one_pos
  exact (d.size_contr 0 hp).trans (congrArg sl.size (getElem_zero_of_eq_singleton hlc hp))

/-- Moving along one index changes nothing but the position read. -/
private theorem val_congr {s : Shape} (j : s.Idx) (p q : Nat) (hp : p < s.rank) (hq : q < s.rank) (h : p = q) :
    (j ⟨p, hp⟩).val = (j ⟨q, hq⟩).val := by
  subst h; rfl

/-- No batch axis and one free axis on the left: on that axis the left operand reads the result's first coordinate. -/
theorem lhsIdx_val_nonContr {sl sr so : Shape} (d : DotDims sl sr so) (hlb : d.lhsBatch = [])
    {a : Fin sl.rank} (hln : d.lhsNonContracting = [a]) (j : so.Idx) (k : d.contr.Idx) (h0 : 0 < so.rank) :
    (d.lhsIdx j k a).val = (j ⟨0, h0⟩).val := by
  have hb : a ∉ d.lhsBatch := by rw [hlb]; exact List.not_mem_nil
  have hn : a ∈ d.lhsNonContracting := by rw [hln]; exact List.mem_singleton.mpr rfl
  unfold DotDims.lhsIdx
  rw [dif_neg hb, dif_pos hn]
  simp only [Fin.val_cast]
  exact val_congr j _ _ _ _ (by simp [hlb, hln])

/-- No batch axis and one free axis on each side: on its free axis the right operand reads the result's second
    coordinate (the result lists the left operand's free axis first). -/
theorem rhsIdx_val_nonContr {sl sr so : Shape} (d : DotDims sl sr so) (hlb : d.lhsBatch = []) (hrb : d.rhsBatch = [])
    {al : Fin sl.rank} (hln : d.lhsNonContracting = [al]) {a : Fin sr.rank} (hrn : d.rhsNonContracting = [a])
    (j : so.Idx) (k : d.contr.Idx) (h1 : 1 < so.rank) :
    (d.rhsIdx j k a).val = (j ⟨1, h1⟩).val := by
  have hb : a ∉ d.rhsBatch := by rw [hrb]; exact List.not_mem_nil
  have hn : a ∈ d.rhsNonContracting := by rw [hrn]; exact List.mem_singleton.mpr rfl
  unfold DotDims.rhsIdx
  rw [dif_neg hb, dif_pos hn]
  simp only [Fin.val_cast]
  exact val_congr j _ _ _ _ (by simp [hlb, hln, hrn])

/-! ## The contraction sum as a sum over the contracted coordinate -/

/-- Rows times columns: the contraction sum at (a, b) is the sum over k of l (a, k) · r (k, b). -/
theorem sum_rows_cols {M K N : Nat} (d : DotDims ⟨2, ![M, K]⟩ ⟨2, ![K, N]⟩ ⟨2, ![M, N]⟩)
    (hlb : d.lhsBatch = []) (hrb : d.rhsBatch = []) (hlc : d.lhsContracting = [1]) (hrc : d.rhsContracting = [0])
    (hln : d.lhsNonContracting = [0]) (hrn : d.rhsNonContracting = [1])
    (l : (⟨2, ![M, K]⟩ : Shape).Idx → EReal) (r : (⟨2, ![K, N]⟩ : Shape).Idx → EReal) (a : Fin M) (b : Fin N) :
    (∑ k : d.contr.Idx, l (d.lhsIdx (ix2 a b) k) * r (d.rhsIdx (ix2 a b) k)) = ∑ k : Fin K, l (ix2 a k) * r (ix2 k b) := by
  have hr : d.contr.rank = 1 := contr_rank_one d hlc
  have hs : d.contr.size ⟨0, by omega⟩ = K := contr_size_zero d hlc
  -- re-index the sum by the one contraction coordinate, then identify each operand's index axis by axis
  rw [← Equiv.sum_comp (contrEquiv1 d K hr hs).symm]
  refine Finset.sum_congr rfl fun k _ => ?_
  have hl : d.lhsIdx (ix2 a b) ((contrEquiv1 d K hr hs).symm k) = ix2 a k := by
    funext ax
    match ax with
    | ⟨0, _⟩ => exact Fin.ext (lhsIdx_val_nonContr d hlb hln _ _ Nat.zero_lt_two)
    | ⟨1, _⟩ => exact Fin.ext ((d.lhsIdx_val_of_single hlc _ _).trans (contrEquiv1_symm_val d K hr hs k))
  have hrr : d.rhsIdx (ix2 a b) ((contrEquiv1 d K hr hs).symm k) = ix2 k b := by
    funext ax
    match ax with
    | ⟨0, _⟩ => exact Fin.ext ((d.rhsIdx_val_of_single hrc _ _).trans (contrEquiv1_symm_val d K hr hs k))
    | ⟨1, _⟩ => exact Fin.ext (rhsIdx_val_nonContr d hlb hrb hln hrn _ _ Nat.one_lt_two)
  rw [hl, hrr]

/-- Transposed-left product: the contraction sum at (a, b) is the sum over k of l (k, a) · r (k, b). -/
theorem sum_cols_cols {M K N : Nat} (d : DotDims ⟨2, ![K, M]⟩ ⟨2, ![K, N]⟩ ⟨2, ![M, N]⟩)
    (hlb : d.lhsBatch = []) (hrb : d.rhsBatch = []) (hlc : d.lhsContracting = [0]) (hrc : d.rhsContracting = [0])
    (hln : d.lhsNonContracting = [1]) (hrn : d.rhsNonContracting = [1])
    (l : (⟨2, ![K, M]⟩ : Shape).Idx → EReal) (r : (⟨2, ![K, N]⟩ : Shape).Idx → EReal) (a : Fin M) (b : Fin N) :
    (∑ k : d.contr.Idx, l (d.lhsIdx (ix2 a b) k) * r (d.rhsIdx (ix2 a b) k)) = ∑ k : Fin K, l (ix2 k a) * r (ix2 k b) := by
  have hr : d.contr.rank = 1 := contr_rank_one d hlc
  have hs : d.contr.size ⟨0, by omega⟩ = K := contr_size_zero d hlc
  rw [← Equiv.sum_comp (contrEquiv1 d K hr hs).symm]
  refine Finset.sum_congr rfl fun k _ => ?_
  -- the left operand's first axis is the contracted one, its second axis carries the result's row
  have hl : d.lhsIdx (ix2 a b) ((contrEquiv1 d K hr hs).symm k) = ix2 k a := by
    funext ax
    match ax with
    | ⟨0, _⟩ => exact Fin.ext ((d.lhsIdx_val_of_single hlc _ _).trans (contrEquiv1_symm_val d K hr hs k))
    | ⟨1, _⟩ => exact Fin.ext (lhsIdx_val_nonContr d hlb hln _ _ Nat.zero_lt_two)
  have hrr : d.rhsIdx (ix2 a b) ((contrEquiv1 d K hr hs).symm k) = ix2 k b := by
    funext ax
    match ax with
    | ⟨0, _⟩ => exact Fin.ext ((d.rhsIdx_val_of_single hrc _ _).trans (contrEquiv1_symm_val d K hr hs k))
    | ⟨1, _⟩ => exact Fin.ext (rhsIdx_val_nonContr d hlb hrb hln hrn _ _ Nat.one_lt_two)
  rw [hl, hrr]

/-! ## The two products at an index -/

/-- The host's product, rows times columns, at an index. -/
theorem dotGeneral_rows_cols {M K N : Nat} {φ₁ φ₂ : FTy} (d : DotDims ⟨2, ![M, K]⟩ ⟨2, ![K, N]⟩ ⟨2, ![M, N]⟩)
    (hlb : d.lhsBatch = []) (hrb : d.rhsBatch = []) (hlc : d.lhsContracting = [1]) (hrc : d.rhsContracting = [0])
    (hln : d.lhsNonContracting = [0]) (hrn : d.rhsNonContracting = [1])
    (prec : Option ContractPrecision) (sched : HostSchedule)
    (l : FVec Ideal ⟨2, ![M, K]⟩ φ₁) (r : FVec Ideal ⟨2, ![K, N]⟩ φ₂) (a : Fin M) (b : Fin N) :
    FloatOps.dotGeneral d prec sched l r (ix2 a b) = ∑ k : Fin K, l (ix2 a k) * r (ix2 k b) :=
  (Ideal.dotGeneral_apply d prec sched l r (ix2 a b)).trans (sum_rows_cols d hlb hrb hlc hrc hln hrn l r a b)

/-- The kernel's product into the zero accumulator, rows times columns, at an index. -/
theorem matmul_zero_rows_cols {M K N : Nat} {φ₁ φ₂ : FTy} (d : DotDims ⟨2, ![M, K]⟩ ⟨2, ![K, N]⟩ ⟨2, ![M, N]⟩)
    (hlb : d.lhsBatch = []) (hrb : d.rhsBatch = []) (hlc : d.lhsContracting = [1]) (hrc : d.rhsContracting = [0])
    (hln : d.lhsNonContracting = [0]) (hrn : d.rhsNonContracting = [1])
    (prec : Option ContractPrecision)
    (l : FVec Ideal ⟨2, ![M, K]⟩ φ₁) (r : FVec Ideal ⟨2, ![K, N]⟩ φ₂) (a : Fin M) (b : Fin N) :
    FloatOps.matmul d prec l r (constant ⟨2, ![M, N]⟩ .f32 0x00000000#32) (ix2 a b) = ∑ k : Fin K, l (ix2 a k) * r (ix2 k b) :=
  (Ideal.matmul_constant_zero_apply d prec l r (ix2 a b)).trans (sum_rows_cols d hlb hrb hlc hrc hln hrn l r a b)

/-- The kernel's transposed-left product into the zero accumulator, at an index. -/
theorem matmul_zero_cols_cols {M K N : Nat} {φ₁ φ₂ : FTy} (d : DotDims ⟨2, ![K, M]⟩ ⟨2, ![K, N]⟩ ⟨2, ![M, N]⟩)
    (hlb : d.lhsBatch = []) (hrb : d.rhsBatch = []) (hlc : d.lhsContracting = [0]) (hrc : d.rhsContracting = [0])
    (hln : d.lhsNonContracting = [1]) (hrn : d.rhsNonContracting = [1])
    (prec : Option ContractPrecision)
    (l : FVec Ideal ⟨2, ![K, M]⟩ φ₁) (r : FVec Ideal ⟨2, ![K, N]⟩ φ₂) (a : Fin M) (b : Fin N) :
    FloatOps.matmul d prec l r (constant ⟨2, ![M, N]⟩ .f32 0x00000000#32) (ix2 a b) = ∑ k : Fin K, l (ix2 k a) * r (ix2 k b) :=
  (Ideal.matmul_constant_zero_apply d prec l r (ix2 a b)).trans (sum_cols_cols d hlb hrb hlc hrc hln hrn l r a b)

end Cert.DotPlain

end
-- ==== Proof.LibKeepdims.lean ====
/- Layout operations and one-axis reductions of small ranks read at an index written by coordinates.

   What a row-wise kernel with `keepdims` sums meets: a column [a] viewed as [a, 1]; a matrix [a, c] viewed as
   [a, 1, c]; the broadcasts [a, 1, c] → [a, b, c] and [a, 1] → [a, b]; a sum or a maximum over the last axis of a
   rank-3 or rank-2 vector, and a sum over the first axis of a rank-2 vector, each as a sum or fold over that axis's
   coordinate; the host's reductions over the last axis of a rank-2 array likewise. Every shape fact is a variable,
   so a lemma applies whatever proof term a program carries for it. -/
import Idealize.ShloMosaic.Lib.Pipeline.Value
import Idealize.ShloMosaic.Lib.ValueIdx
import Idealize.ShloMosaic.PureOps.Ideal.Laws

noncomputable section

open scoped BigOperators

namespace Cert.Keepdims

open Idealize.ShloMosaic Idealize.ShloMosaic.ValueIdx

variable {α : Type}

/-- A column [a] viewed as [a, 1] reads, at (r, u), the column at r. -/
theorem shapeCast_a_a1_apply {a : ℕ} (x : (⟨1, ![a]⟩ : Shape).Idx → α)
    (h : (⟨1, ![a]⟩ : Shape).ShapeCasts ⟨2, ![a, 1]⟩) (r : Fin a) (u : Fin 1) :
    shapeCast ⟨2, ![a, 1]⟩ x h (ix2 r u) = x (ix1 r) :=
  shapeCast_apply x h _ _ (by
    have hu : u.val = 0 := by omega
    rw [Shape.rowMajor_val_two, Shape.rowMajor_val_one]
    show r.val = r.val * 1 + u.val
    rw [hu, Nat.mul_one, Nat.add_zero])

/-- A matrix [a, c] viewed as [a, 1, c] reads, at (r, u, q), the matrix at (r, q). -/
theorem shapeCast_ac_a1c_apply {a c : ℕ} (x : (⟨2, ![a, c]⟩ : Shape).Idx → α)
    (h : (⟨2, ![a, c]⟩ : Shape).ShapeCasts ⟨3, ![a, 1, c]⟩) (r : Fin a) (u : Fin 1) (q : Fin c) :
    shapeCast ⟨3, ![a, 1, c]⟩ x h (ix3 r u q) = x (ix2 r q) :=
  shapeCast_apply x h _ _ (by
    have hu : u.val = 0 := by omega
    rw [Shape.rowMajor_val_three, Shape.rowMajor_val_two]
    show r.val * c + q.val = (r.val * 1 + u.val) * c + q.val
    rw [hu, Nat.mul_one, Nat.add_zero])

/-- [a, 1, c] broadcast along its middle axis reads, at (r, k, q), the operand at (r, 0, q). -/
theorem broadcastTo_a1c_abc_apply {a b c : ℕ} (x : (⟨3, ![a, 1, c]⟩ : Shape).Idx → α)
    (h : (⟨3, ![a, 1, c]⟩ : Shape).Broadcasts ⟨3, ![a, b, c]⟩) (r : Fin a) (k : Fin b) (q : Fin c) :
    broadcastTo ⟨3, ![a, b, c]⟩ x h (ix3 r k q) = x (ix3 r (0 : Fin 1) q) :=
  broadcastTo_apply x h _ _ (fun ax => match ax with
    | ⟨0, _⟩ => by
      have := r.isLt
      show r.val = if a = 1 then 0 else r.val
      split <;> omega
    | ⟨1, _⟩ => by
      show 0 = if (1 : ℕ) = 1 then 0 else k.val
      rw [if_pos rfl]
    | ⟨2, _⟩ => by
      have := q.isLt
      show q.val = if c = 1 then 0 else q.val
      split <;> omega)

/-- A column [a, 1] broadcast along its unit axis reads, at (r, k), the column at (r, 0). -/
theorem broadcastTo_a1_ab_apply {a b : ℕ} (x : (⟨2, ![a, 1]⟩ : Shape).Idx → α)
    (h : (⟨2, ![a, 1]⟩ : Shape).Broadcasts ⟨2, ![a, b]⟩) (r : Fin a) (k : Fin b) :
    broadcastTo ⟨2, ![a, b]⟩ x h (ix2 r k) = x (ix2 r (0 : Fin 1)) :=
  broadcastTo_apply x h _ _ (fun ax => match ax with
    | ⟨0, _⟩ => by
      have := r.isLt
      show r.val = if a = 1 then 0 else r.val
      split <;> omega
    | ⟨1, _⟩ => by
      show 0 = if (1 : ℕ) = 1 then 0 else k.val
      rw [if_pos rfl])

/-- The index over (r, k) with q inserted on the last of three axes is (r, k, q). -/
theorem lift_last3 {a b c : ℕ} (h : (⟨3, ![a, b, c]⟩ : Shape).Reduces [2] ⟨2, ![a, b]⟩) (r : Fin a) (k : Fin b) (q : Fin c) :
    h.lift (ix2 r k) q = ix3 r k q :=
  funext fun ax => Fin.ext (by match ax with | ⟨0, _⟩ => rfl | ⟨1, _⟩ => rfl | ⟨2, _⟩ => rfl)

/-- The index over (r) with k inserted on the last of two axes is (r, k). -/
theorem lift_last2 {a b : ℕ} (h : (⟨2, ![a, b]⟩ : Shape).Reduces [1] ⟨1, ![a]⟩) (r : Fin a) (k : Fin b) :
    h.lift (ix1 r) k = ix2 r k :=
  funext fun ax => Fin.ext (by match ax with | ⟨0, _⟩ => rfl | ⟨1, _⟩ => rfl)

/-- The index over (q) with r inserted on the first of two axes is (r, q). -/
theorem lift_first2 {a b : ℕ} (h : (⟨2, ![a, b]⟩ : Shape).Reduces [0] ⟨1, ![b]⟩) (r : Fin a) (q : Fin b) :
    h.lift (ix1 q) r = ix2 r q :=
  funext fun ax => Fin.ext (by match ax with | ⟨0, _⟩ => rfl | ⟨1, _⟩ => rfl)

variable {φ : FTy}

/-- A sum over the last of three axes, at (r, k): the sum over q of the source at (r, k, q). -/
theorem sum_last3_apply {a b c : ℕ} (src : FVec Ideal ⟨3, ![a, b, c]⟩ φ) (acc : BitVec φ.bits)
    (h : (⟨3, ![a, b, c]⟩ : Shape).Reduces [2] ⟨2, ![a, b]⟩) (hφ : FKind.Formats φ) (hacc : acc = FKind.add.neutral φ hφ)
    (r : Fin a) (k : Fin b) :
    multiReduction .add [2] ⟨2, ![a, b]⟩ src acc h hφ hacc (ix2 r k) = ∑ q : Fin c, src (ix3 r k q) :=
  (Ideal.multiReduction_add_single src acc h hφ hacc (ix2 r k)).trans
    (Finset.sum_congr rfl fun q _ => congrArg src (lift_last3 h r k q))

/-- A sum over the last of two axes, at (r): the sum over k of the source at (r, k). -/
theorem sum_last2_apply {a b : ℕ} (src : FVec Ideal ⟨2, ![a, b]⟩ φ) (acc : BitVec φ.bits)
    (h : (⟨2, ![a, b]⟩ : Shape).Reduces [1] ⟨1, ![a]⟩) (hφ : FKind.Formats φ) (hacc : acc = FKind.add.neutral φ hφ)
    (r : Fin a) :
    multiReduction .add [1] ⟨1, ![a]⟩ src acc h hφ hacc (ix1 r) = ∑ k : Fin b, src (ix2 r k) :=
  (Ideal.multiReduction_add_single src acc h hφ hacc (ix1 r)).trans
    (Finset.sum_congr rfl fun k _ => congrArg src (lift_last2 h r k))

/-- A sum over the first of two axes, at (q): the sum over r of the source at (r, q). -/
theorem sum_first2_apply {a b : ℕ} (src : FVec Ideal ⟨2, ![a, b]⟩ φ) (acc : BitVec φ.bits)
    (h : (⟨2, ![a, b]⟩ : Shape).Reduces [0] ⟨1, ![b]⟩) (hφ : FKind.Formats φ) (hacc : acc = FKind.add.neutral φ hφ)
    (q : Fin b) :
    multiReduction .add [0] ⟨1, ![b]⟩ src acc h hφ hacc (ix1 q) = ∑ r : Fin a, src (ix2 r q) :=
  (Ideal.multiReduction_add_single src acc h hφ hacc (ix1 q)).trans
    (Finset.sum_congr rfl fun r _ => congrArg src (lift_first2 h r q))

/-- A maximum over the last of two axes, at (r): the fold of max, from the accumulator's value, over k of the
    source at (r, k). -/
theorem max_last2_apply {a b : ℕ} (src : FVec Ideal ⟨2, ![a, b]⟩ φ) (acc : BitVec φ.bits)
    (h : (⟨2, ![a, b]⟩ : Shape).Reduces [1] ⟨1, ![a]⟩) (hφ : FKind.Formats φ) (hacc : acc = FKind.maximumf.neutral φ hφ)
    (r : Fin a) :
    multiReduction .maximumf [1] ⟨1, ![a]⟩ src acc h hφ hacc (ix1 r)
      = (Finset.univ : Finset (Fin b)).fold max (Ideal.ofBits φ acc) (fun k => src (ix2 r k)) :=
  (Ideal.multiReduction_maximumf_single src acc h hφ hacc (ix1 r)).trans
    (congrArg (fun g => (Finset.univ : Finset (Fin b)).fold max (Ideal.ofBits φ acc) g)
      (funext fun k => congrArg src (lift_last2 h r k)))

/-- The host's maximum over the last of two axes, at (r): the same fold, from the initial value's element. -/
theorem host_max_last2_apply {a b : ℕ} {u : Shape} (x : (⟨2, ![a, b]⟩ : Shape).Idx → EReal) (init : u.Idx → EReal)
    (h' : (⟨2, ![a, b]⟩ : Shape).ReducesTo [1] ⟨1, ![a]⟩) (h : (⟨2, ![a, b]⟩ : Shape).Reduces [1] ⟨1, ![a]⟩)
    (hu : 0 < u.numel) (r : Fin a) :
    Host.reduce (FloatOps.maximumf (F := Ideal) (φ := φ)) x init h' hu (ix1 r)
      = (Finset.univ : Finset (Fin b)).fold max (init (Shape.Idx.first hu)) (fun k => x (ix2 r k)) :=
  (Host.reduce_eq_fold_single (FloatOps.maximumf (F := Ideal) (φ := φ)) x init h' h hu (ix1 r)).trans
    (congrArg (fun g => (Finset.univ : Finset (Fin b)).fold max (init (Shape.Idx.first hu)) g)
      (funext fun k => congrArg x (lift_last2 h r k)))

end Cert.Keepdims

end
-- ==== Proof.LibLeadAxis.lean ====
/- Layout operations and a first-axis reduction of rank 3 read at an index written by coordinates.

   What a kernel working on blocks [k, a, b] with the reduced axis LEADING meets, and its mirror image with the
   reduced axis TRAILING: a sum over the first of three axes as a sum over that axis's coordinate; the broadcast
   [1, a, b] → [k, a, b] along a leading unit axis; a matrix [a, b] viewed as [a, b, 1] and the broadcast
   [a, b, 1] → [a, b, c] along a trailing unit axis. Every shape fact is a variable, so a lemma applies whatever
   proof term a program carries for it. -/
import Idealize.ShloMosaic.Lib.Pipeline.Value
import Idealize.ShloMosaic.Lib.ValueIdx
import Idealize.ShloMosaic.PureOps.Ideal.Laws

noncomputable section

open scoped BigOperators

namespace Cert.LeadAxis

open Idealize.ShloMosaic Idealize.ShloMosaic.ValueIdx

variable {α : Type}

/-- [1, a, b] broadcast along its leading unit axis reads, at (k, r, q), the operand at (0, r, q). -/
theorem broadcastTo_1ab_kab_apply {k a b : ℕ} (x : (⟨3, ![1, a, b]⟩ : Shape).Idx → α)
    (h : (⟨3, ![1, a, b]⟩ : Shape).Broadcasts ⟨3, ![k, a, b]⟩) (j : Fin k) (r : Fin a) (q : Fin b) :
    broadcastTo ⟨3, ![k, a, b]⟩ x h (ix3 j r q) = x (ix3 (0 : Fin 1) r q) :=
  broadcastTo_apply x h _ _ (fun ax => match ax with
    | ⟨0, _⟩ => by
      show 0 = if (1 : ℕ) = 1 then 0 else j.val
      rw [if_pos rfl]
    | ⟨1, _⟩ => by
      have := r.isLt
      show r.val = if a = 1 then 0 else r.val
      split <;> omega
    | ⟨2, _⟩ => by
      have := q.isLt
      show q.val = if b = 1 then 0 else q.val
      split <;> omega)

/-- A matrix [a, b] viewed as [a, b, 1] reads, at (r, q, u), the matrix at (r, q). -/
theorem shapeCast_ab_ab1_apply {a b : ℕ} (x : (⟨2, ![a, b]⟩ : Shape).Idx → α)
    (h : (⟨2, ![a, b]⟩ : Shape).ShapeCasts ⟨3, ![a, b, 1]⟩) (r : Fin a) (q : Fin b) (u : Fin 1) :
    shapeCast ⟨3, ![a, b, 1]⟩ x h (ix3 r q u) = x (ix2 r q) :=
  shapeCast_apply x h _ _ (by
    have hu : u.val = 0 := by omega
    rw [Shape.rowMajor_val_three, Shape.rowMajor_val_two]
    show r.val * b + q.val = (r.val * b + q.val) * 1 + u.val
    rw [hu, Nat.mul_one, Nat.add_zero])

/-- [a, b, 1] broadcast along its trailing unit axis reads, at (r, q, j), the operand at (r, q, 0). -/
theorem broadcastTo_ab1_abc_apply {a b c : ℕ} (x : (⟨3, ![a, b, 1]⟩ : Shape).Idx → α)
    (h : (⟨3, ![a, b, 1]⟩ : Shape).Broadcasts ⟨3, ![a, b, c]⟩) (r : Fin a) (q : Fin b) (j : Fin c) :
    broadcastTo ⟨3, ![a, b, c]⟩ x h (ix3 r q j) = x (ix3 r q (0 : Fin 1)) :=
  broadcastTo_apply x h _ _ (fun ax => match ax with
    | ⟨0, _⟩ => by
      have := r.isLt
      show r.val = if a = 1 then 0 else r.val
      split <;> omega
    | ⟨1, _⟩ => by
      have := q.isLt
      show q.val = if b = 1 then 0 else q.val
      split <;> omega
    | ⟨2, _⟩ => by
      show 0 = if (1 : ℕ) = 1 then 0 else j.val
      rw [if_pos rfl])

/-- The index over (r, q) with j inserted on the first of three axes is (j, r, q). -/
theorem lift_first3 {k a b : ℕ} (h : (⟨3, ![k, a, b]⟩ : Shape).Reduces [0] ⟨2, ![a, b]⟩) (r : Fin a) (q : Fin b) (j : Fin k) :
    h.lift (ix2 r q) j = ix3 j r q :=
  funext fun ax => Fin.ext (by match ax with | ⟨0, _⟩ => rfl | ⟨1, _⟩ => rfl | ⟨2, _⟩ => rfl)

variable {φ : FTy}

/-- A sum over the first of three axes, at (r, q): the sum over j of the source at (j, r, q). -/
theorem sum_first3_apply {k a b : ℕ} (src : FVec Ideal ⟨3, ![k, a, b]⟩ φ) (acc : BitVec φ.bits)
    (h : (⟨3, ![k, a, b]⟩ : Shape).Reduces [0] ⟨2, ![a, b]⟩) (hφ : FKind.Formats φ) (hacc : acc = FKind.add.neutral φ hφ)
    (r : Fin a) (q : Fin b) :
    multiReduction .add [0] ⟨2, ![a, b]⟩ src acc h hφ hacc (ix2 r q) = ∑ j : Fin k, src (ix3 j r q) :=
  (Ideal.multiReduction_add_single src acc h hφ hacc (ix2 r q)).trans
    (Finset.sum_congr rfl fun j _ => congrArg src (lift_first3 h r q j))

end Cert.LeadAxis

end
-- ==== Proof.BlockStages.lean ====
/- The stages of the squeeze-and-excite body read at an index, over vectors of literal shapes, at the extended reals.

   Both programs' kernel bodies run the same four stages on one block of samples; they differ only in where the
   spatial axis sits.  Each stage below is stated for the shapes both bodies use, with every shape fact a variable:
   the pooled value (a one-axis sum, then the scale by the constant), the hidden layer (a product into the zero
   accumulator, the bias row (its identity cast already dropped) broadcast down the rows, the clamp at zero), the gate (a second product, bias, logistic),
   and the final product of the block with its gate broadcast along the spatial axis. -/
import proofs.«120998_g2000007151489569_pallasbulk_1225_8_alg».proof.Proof.Spec
import proofs.«120998_g2000007151489569_pallasbulk_1225_8_alg».proof.Proof.LibDotPlain
import proofs.«120998_g2000007151489569_pallasbulk_1225_8_alg».proof.Proof.LibKeepdims
import proofs.«120998_g2000007151489569_pallasbulk_1225_8_alg».proof.Proof.LibLeadAxis
import Idealize.ShloMosaic.Lib.ValueLayout
import Idealize.ShloMosaic.Lib.Pipeline.Value

noncomputable section

open scoped BigOperators

namespace Cert.SqEx

open Idealize.ShloMosaic Idealize.ShloMosaic.ValueIdx

/-- The logistic function, lane by lane, at an index. -/
theorem logistic_apply {s : Shape} {φ : FTy} (a : FVec Ideal s φ) (i : s.Idx) : logistic a i = Ideal.logistic (a i) := rfl

/-- The scale of a pooled matrix [a, 512] by the constant, at (p, c). -/
theorem scaled_apply {a : ℕ} (v2 : FVec Ideal ⟨2, ![a, 512]⟩ .f32) (p : Fin a) (c : Fin 512) :
    mulf v2 (broadcast ⟨2, ![a, 512]⟩ (Scalar.ofBits (F := Ideal) .f32 0x3BA72F05#32)) (ix2 p c) = v2 (ix2 p c) * invHW := rfl

/-- The hidden layer at (p, r): the product of the scaled pooled row p with column r of W1, plus the bias, clamped at zero. -/
theorem hidden_apply {a : ℕ} (d : DotDims ⟨2, ![a, 512]⟩ ⟨2, ![512, 32]⟩ ⟨2, ![a, 32]⟩)
    (hlb : d.lhsBatch = []) (hrb : d.rhsBatch = []) (hlc : d.lhsContracting = [1]) (hrc : d.rhsContracting = [0])
    (hln : d.lhsNonContracting = [0]) (hrn : d.rhsNonContracting = [1])
    (v4 : FVec Ideal ⟨2, ![a, 512]⟩ .f32) (x1 : FVec Ideal ⟨2, ![512, 32]⟩ .f32) (x2 : FVec Ideal ⟨2, ![1, 32]⟩ .f32)
    (hb : (⟨2, ![1, 32]⟩ : Shape).Broadcasts ⟨2, ![a, 32]⟩)
    (p : Fin a) (r : Fin 32) :
    maximumf (addf (FloatOps.matmul d none v4 x1 (constant ⟨2, ![a, 32]⟩ .f32 0x00000000#32))
        (broadcastTo ⟨2, ![a, 32]⟩ x2 hb))
      (broadcast ⟨2, ![a, 32]⟩ (Scalar.ofBits (F := Ideal) .f32 0x00000000#32)) (ix2 p r)
    = max ((∑ c : Fin 512, v4 (ix2 p c) * x1 (ix2 c r)) + x2 (ix2 (0 : Fin 1) r)) zeroW := by
  rw [maximumf_apply, addf_apply, Cert.DotPlain.matmul_zero_rows_cols d hlb hrb hlc hrc hln hrn,
    broadcastTo_1b_ab_apply]
  rfl

/-- The gate at (p, q): the product of hidden row p with column q of W2, plus the bias, through the logistic function. -/
theorem gate_apply {a : ℕ} (d : DotDims ⟨2, ![a, 32]⟩ ⟨2, ![32, 512]⟩ ⟨2, ![a, 512]⟩)
    (hlb : d.lhsBatch = []) (hrb : d.rhsBatch = []) (hlc : d.lhsContracting = [1]) (hrc : d.rhsContracting = [0])
    (hln : d.lhsNonContracting = [0]) (hrn : d.rhsNonContracting = [1])
    (v12 : FVec Ideal ⟨2, ![a, 32]⟩ .f32) (x3 : FVec Ideal ⟨2, ![32, 512]⟩ .f32) (x4 : FVec Ideal ⟨2, ![1, 512]⟩ .f32)
    (hb : (⟨2, ![1, 512]⟩ : Shape).Broadcasts ⟨2, ![a, 512]⟩)
    (p : Fin a) (q : Fin 512) :
    logistic (addf (FloatOps.matmul d none v12 x3 (constant ⟨2, ![a, 512]⟩ .f32 0x00000000#32))
        (broadcastTo ⟨2, ![a, 512]⟩ x4 hb)) (ix2 p q)
    = Ideal.logistic ((∑ r : Fin 32, v12 (ix2 p r) * x3 (ix2 r q)) + x4 (ix2 (0 : Fin 1) q)) := by
  rw [logistic_apply, addf_apply, Cert.DotPlain.matmul_zero_rows_cols d hlb hrb hlc hrc hln hrn,
    broadcastTo_1b_ab_apply]

end Cert.SqEx

end
-- ==== Proof.KernelBody.lean ====
/- The body of the kernel at one index of its block.

   The block is laid out [position, sample, channel]: 196 positions, 32 samples, 512 channels.  The pooled sum of
   sample p, channel c is the sum down the leading axis; the gate of (p, q) multiplies every position of that column. -/
import proofs.«120998_g2000007151489569_pallasbulk_1225_8_alg».proof.Proof.Gen.KernelIdeal.Skeleton
import proofs.«120998_g2000007151489569_pallasbulk_1225_8_alg».proof.Proof.BlockStages

noncomputable section

open scoped BigOperators

namespace Cert.KernelIdeal.Body

open Idealize.ShloMosaic Idealize.ShloMosaic.ValueIdx Cert.KernelIdeal Cert.KernelIdeal.Gen Cert.SqEx

/-- The stored value at ix3 k p q: the loaded entry times the gate computed from the block's own pooled sums and the
    weights and biases as loaded. -/
theorem pay_apply (x0 : Vec Ideal S196x32x512 .f32) (x1 : Vec Ideal S512x32 .f32) (x2 : Vec Ideal S1x32 .f32)
    (x3 : Vec Ideal S32x512 .f32) (x4 : Vec Ideal S1x512 .f32) (k : Fin 196) (p : Fin 32) (q : Fin 512) :
    k0_pay1 (F := Ideal) x0 x1 x2 x3 x4 (ix3 k p q)
      = x0 (ix3 k p q) * gate (fun c => ∑ k' : Fin 196, x0 (ix3 k' p c)) x1 (fun r => x2 (ix2 (0 : Fin 1) r)) x3 (fun c => x4 (ix2 (0 : Fin 1) c)) q := by
  unfold k0_pay1
  dsimp only
  -- the identity casts of the loaded blocks drop
  simp only [shapeCast_self]
  -- the last product, then the gate's outer stage, at this index
  rw [mulf_apply, Cert.LeadAxis.broadcastTo_1ab_kab_apply, shapeCast_ab_1ab_apply,
    gate_apply dot_S32x32_S32x512_S32x512_1_0_0_1_n_n rfl rfl rfl rfl rfl rfl]
  -- the hidden layer, the scale and the pooled sum, under the sums
  simp only [hidden_apply dot_S32x512_S512x32_S32x32_1_0_0_1_n_n rfl rfl rfl rfl rfl rfl, scaled_apply]
  unfold gate
  -- what is left differs only in the pooled sum: the reduction down the leading axis is the sum over positions
  refine congrArg (fun z => x0 (ix3 k p q) * Ideal.logistic (z + x4 (ix2 (0 : Fin 1) q))) ?_
  refine Finset.sum_congr rfl fun r _ => ?_
  refine congrArg (fun z => max (z + x2 (ix2 (0 : Fin 1) r)) zeroW * x3 (ix2 r q)) ?_
  refine Finset.sum_congr rfl fun c _ => ?_
  exact congrArg (fun z => z * invHW * x1 (ix2 c r))
    (Cert.LeadAxis.sum_first3_apply (φ := .f32) x0 0x00000000#32 Facts₀.reduces_S196x32x512_S32x512 (.inl rfl) rfl p c)

end Cert.KernelIdeal.Body

end
-- ==== Proof.KernelValue.lean ====
/- What the kernel program leaves in its result array, as the squeeze-and-excite function of its arguments.

   The program transposes x[n, c, h, w] to [h, w, n, c] and flattens the plane to one axis of 196 positions; the
   region works on that array in four blocks of 32 samples; afterwards the result is unflattened and transposed back.
   So: (1) the array the region reads, at (k, n, c), is x at (n, c, row k, column k); (2) every block of the region's
   output is the block of ONE whole-array function, the entry times the gate of its sample and channel; the four
   blocks tile the sample axis, so the output array is that function; (3) the two operations after the region read it
   back at (n, c, h, w) from position 14 h + w. -/
import proofs.«120998_g2000007151489569_pallasbulk_1225_8_alg».proof.Proof.Gen.KernelIdeal.Frame
import proofs.«120998_g2000007151489569_pallasbulk_1225_8_alg».proof.Proof.KernelBody
import Idealize.ShloMosaic.Lib.Pipeline.Value
import Idealize.ShloMosaic.Lib.StableHlo.Run
import Idealize.ShloMosaic.Lib.ValueLayout

set_option maxRecDepth 16384

noncomputable section

open scoped BigOperators

namespace Cert.KernelIdeal.HandValue

open Idealize.ShloMosaic Idealize.ShloMosaic.TcCoe Idealize.ShloMosaic.ValueIdx Idealize.SL.Sem
open Cert.KernelIdeal Cert.KernelIdeal.Gen Cert.SqEx
open Idealize.ShloMosaic.Pipeline (Dat)

variable (m : (ℓ : Loc nD τ sig) → Buf (Elt Ideal) ℓ) (ρ : Dev nD → PrngReg)

/-! ## The arrays, by their literal types -/

/-- The five arguments as launched. -/
abbrev xA (c : Dev nD) : S128x512x14x14.Idx → EReal := m ((c : Thread nD τ).loc main_arg0)
abbrev w1A (c : Dev nD) : S512x32.Idx → EReal := m ((c : Thread nD τ).loc main_arg1)
abbrev b1A (c : Dev nD) : S32.Idx → EReal := m ((c : Thread nD τ).loc main_arg2)
abbrev w2A (c : Dev nD) : S32x512.Idx → EReal := m ((c : Thread nD τ).loc main_arg3)
abbrev b2A (c : Dev nD) : S512.Idx → EReal := m ((c : Thread nD τ).loc main_arg4)

/-- The arrays the region's windows stage, as the region finds them. -/
abbrev xT (c : Dev nD) : S196x128x512.Idx → EReal := V m c main_v1
abbrev w1T (c : Dev nD) : S512x32.Idx → EReal := V m c main_arg1
abbrev b1T (c : Dev nD) : S1x32.Idx → EReal := V m c main_v2
abbrev w2T (c : Dev nD) : S32x512.Idx → EReal := V m c main_arg3
abbrev b2T (c : Dev nD) : S1x512.Idx → EReal := V m c main_v3

/-! ## The operations before the region -/

theorem xT_eq (c : Dev nD) : xT m c = shapeCast S196x128x512
    (transpose S14x14x128x512 [2, 3, 0, 1] (xA m c) transposes_S128x512x14x14_S14x14x128x512_2_3_0_1)
    shapeCasts_S14x14x128x512_S196x128x512 := by
  show StableHlo.after hostOps0 (fun b => m (c, b)) (Proc.devRef .tc main_v1) = _
  after_results
  rfl

theorem b1T_eq (c : Dev nD) : b1T m c = shapeCast S1x32 (b1A m c) shapeCasts_S32_S1x32 := by
  show StableHlo.after hostOps0 (fun b => m (c, b)) (Proc.devRef .tc main_v2) = _
  after_results
  rfl

theorem b2T_eq (c : Dev nD) : b2T m c = shapeCast S1x512 (b2A m c) shapeCasts_S512_S1x512 := by
  show StableHlo.after hostOps0 (fun b => m (c, b)) (Proc.devRef .tc main_v3) = _
  after_results
  rfl

theorem w1T_eq (c : Dev nD) : w1T m c = w1A m c := V_main_arg1 m c
theorem w2T_eq (c : Dev nD) : w2T m c = w2A m c := V_main_arg3 m c

/-- The staged activation at (position k, sample n, channel ch) is x at (n, ch, row of k, column of k). -/
theorem xT_apply (c : Dev nD) (k : Fin 196) (n : Fin 128) (ch : Fin 512) :
    xT m c (ix3 k n ch) = xA m c (ix4 n ch (prow k) (pcol k)) := by
  rw [xT_eq]
  refine (shapeCast_apply _ _ (ix3 k n ch) (ix4 (prow k) (pcol k) n ch) ?_).trans ?_
  · rw [Shape.rowMajor_val_four, Shape.rowMajor_val_three]
    have hk : (prow k).val * 14 + (pcol k).val = k.val := by
      show k.val / 14 * 14 + k.val % 14 = k.val
      omega
    show (((prow k).val * 14 + (pcol k).val) * 128 + n.val) * 512 + ch.val = (k.val * 128 + n.val) * 512 + ch.val
    rw [hk]
  · exact transpose_apply _ _ _ (ix4 (prow k) (pcol k) n ch) (ix4 n ch (prow k) (pcol k)) (fun b => by
      match b with
      | ⟨0, _⟩ => rfl
      | ⟨1, _⟩ => rfl
      | ⟨2, _⟩ => rfl
      | ⟨3, _⟩ => rfl)

theorem b1T_apply (c : Dev nD) (r : Fin 32) : b1T m c (ix2 (0 : Fin 1) r) = b1A m c (ix1 r) := by
  rw [b1T_eq]; exact shapeCast_a_1a_apply _ _ _ _
theorem b2T_apply (c : Dev nD) (q : Fin 512) : b2T m c (ix2 (0 : Fin 1) q) = b2A m c (ix1 q) := by
  rw [b2T_eq]; exact shapeCast_a_1a_apply _ _ _ _

/-! ## The region's output array -/

/-- What the region's output array ends holding: each staged entry times the gate of its sample and channel. -/
def G (c : Dev nD) : S196x128x512.Idx → EReal := fun i =>
  xT m c i * gate (fun c' => ∑ k' : Fin 196, xT m c (ix3 k' (i 1) c')) (w1T m c) (fun r => b1T m c (ix2 (0 : Fin 1) r))
    (w2T m c) (fun q => b2T m c (ix2 (0 : Fin 1) q)) (i 2)

theorem hz3 : (![0, 0, 0] : Fin 3 → Nat) = fun _ => 0 := funext fun a => by fin_cases a <;> rfl
theorem hz2 : (![0, 0] : Fin 2 → Nat) = fun _ => 0 := funext fun a => by fin_cases a <;> rfl

/-- The printed index maps over the grid: the activation's and the output's block t is block t of the sample axis, the
    weights and biases are whole. -/
theorem idx_facts : ∀ t : Fin cfg0.N,
    win0_0.index t (0 : Fin 3) = 0 ∧ win0_0.index t (1 : Fin 3) = t.val ∧ win0_0.index t (2 : Fin 3) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 3) = 0 ∧ win0_5.index t (1 : Fin 3) = t.val ∧ win0_5.index t (2 : Fin 3) = 0 :=
  (by decide +kernel : ∀ t : Fin grid0.N, _)

theorem t_lt (t : Fin cfg0.N) : t.val < 4 := lt_of_lt_of_eq t.isLt N_0

/-- The activation's block at point t, at (k, p, q), is the staged array at sample 32 t + p. -/
theorem blk0_apply (c : Dev nD) (t : Fin cfg0.N) (k : Fin 196) (p : Fin 32) (q : Fin 512) (n : Fin 128)
    (hn : n.val = t.val * 32 + p.val) : iblk m c 0 t (ix3 k p q) = xT m c (ix3 k n q) := by
  obtain ⟨e0, e1, e2, -⟩ := idx_facts t
  show V m c main_v1 (((cfg0.win 0).blk t).view.emb (ix3 k p q)) = V m c main_v1 (ix3 k n q)
  refine congrArg _ (funext fun a => Fin.ext ?_)
  match a with
  | ⟨0, _⟩ => show win0_0.index t (0 : Fin 3) * 196 + 1 * k.val = k.val; omega
  | ⟨1, _⟩ => show win0_0.index t (1 : Fin 3) * 32 + 1 * p.val = n.val; omega
  | ⟨2, _⟩ => show win0_0.index t (2 : Fin 3) * 512 + 1 * q.val = q.val; omega

theorem blk1_eq (c : Dev nD) (t : Fin cfg0.N) : iblk m c 1 t = w1T m c := by
  obtain ⟨-, -, -, e0, e1, -⟩ := idx_facts t
  funext j
  show V m c main_arg1 (((cfg0.win 1).blk t).view.emb j) = V m c main_arg1 j
  refine congrArg _ (funext fun a => Fin.ext ?_)
  match a with
  | ⟨0, _⟩ => show win0_1.index t (0 : Fin 2) * 512 + 1 * (j 0).val = (j 0).val; omega
  | ⟨1, _⟩ => show win0_1.index t (1 : Fin 2) * 32 + 1 * (j 1).val = (j 1).val; omega

theorem blk2_eq (c : Dev nD) (t : Fin cfg0.N) : iblk m c 2 t = b1T m c := by
  obtain ⟨-, -, -, -, -, e0, e1, -⟩ := idx_facts t
  funext j
  show V m c main_v2 (((cfg0.win 2).blk t).view.emb j) = V m c main_v2 j
  refine congrArg _ (funext fun a => Fin.ext ?_)
  match a with
  | ⟨0, _⟩ => show win0_2.index t (0 : Fin 2) * 1 + 1 * (j 0).val = (j 0).val; omega
  | ⟨1, _⟩ => show win0_2.index t (1 : Fin 2) * 32 + 1 * (j 1).val = (j 1).val; omega

theorem blk3_eq (c : Dev nD) (t : Fin cfg0.N) : iblk m c 3 t = w2T m c := by
  obtain ⟨-, -, -, -, -, -, -, e0, e1, -⟩ := idx_facts t
  funext j
  show V m c main_arg3 (((cfg0.win 3).blk t).view.emb j) = V m c main_arg3 j
  refine congrArg _ (funext fun a => Fin.ext ?_)
  match a with
  | ⟨0, _⟩ => show win0_3.index t (0 : Fin 2) * 32 + 1 * (j 0).val = (j 0).val; omega
  | ⟨1, _⟩ => show win0_3.index t (1 : Fin 2) * 512 + 1 * (j 1).val = (j 1).val; omega

theorem blk4_eq (c : Dev nD) (t : Fin cfg0.N) : iblk m c 4 t = b2T m c := by
  obtain ⟨-, -, -, -, -, -, -, -, -, e0, e1, -⟩ := idx_facts t
  funext j
  show V m c main_v3 (((cfg0.win 4).blk t).view.emb j) = V m c main_v3 j
  refine congrArg _ (funext fun a => Fin.ext ?_)
  match a with
  | ⟨0, _⟩ => show win0_4.index t (0 : Fin 2) * 1 + 1 * (j 0).val = (j 0).val; omega
  | ⟨1, _⟩ => show win0_4.index t (1 : Fin 2) * 512 + 1 * (j 1).val = (j 1).val; omega

/-- The stored block at point t, at (k, p, q), is G at (k, 32 t + p, q): the body's value with every loaded block
    read where it sits in its array. -/
theorem point_eq (c : Dev nD) (t : Fin cfg0.N) (k : Fin 196) (p : Fin 32) (q : Fin 512) (n : Fin 128)
    (hn : n.val = t.val * 32 + p.val) :
    k0_pay1 (F := Ideal) (iblk m c 0 t) (iblk m c 1 t) (iblk m c 2 t) (iblk m c 3 t) (iblk m c 4 t) (ix3 k p q)
      = G m c (ix3 k n q) := by
  refine (Body.pay_apply (iblk m c 0 t) (iblk m c 1 t) (iblk m c 2 t) (iblk m c 3 t) (iblk m c 4 t) k p q).trans ?_
  have a0 : ∀ (k' : Fin 196) (c' : Fin 512), iblk m c 0 t (ix3 k' p c') = xT m c (ix3 k' n c') :=
    fun k' c' => blk0_apply m c t k' p c' n hn
  show _ = xT m c (ix3 k n q) * gate (fun c' => ∑ k' : Fin 196, xT m c (ix3 k' n c')) (w1T m c)
    (fun r => b1T m c (ix2 (0 : Fin 1) r)) (w2T m c) (fun q => b2T m c (ix2 (0 : Fin 1) q)) q
  rw [blk1_eq m c t, blk2_eq m c t, blk3_eq m c t, blk4_eq m c t]
  simp only [a0]

/-- What point t writes back is block t of G. -/
theorem flushed_eq (c : Dev nD) (t : Fin cfg0.N) :
    (dats m 0 c).flushed 5 t = ((cfg0.win 5).blk t).view.read (Elt Ideal) (G m c) := by
  show (cfg0.win 5).cut (grid0.coords t) ((dats m 0 c).after 5 t) = _
  rw [after0_5]
  unfold out0_5
  rw [View.canon_unit_zero hz3]
  simp only [View.ld_unit_zero (S := S196x32x512) hz3, View.ld_unit_zero (S := S512x32) hz2,
    View.ld_unit_zero (S := S1x32) hz2, View.ld_unit_zero (S := S32x512) hz2, View.ld_unit_zero (S := S1x512) hz2]
  have ht := t_lt t
  obtain ⟨-, -, -, -, -, -, -, -, -, -, -, e0, e1, e2⟩ := idx_facts t
  funext j
  obtain ⟨k, p, q, rfl⟩ : ∃ (k : Fin 196) (p : Fin 32) (q : Fin 512), j = ix3 k p q := ⟨j 0, j 1, j 2, eq_ix3 j⟩
  have hemb : ((cfg0.win 5).blk t).view.emb (ix3 k p q)
      = ix3 k (⟨t.val * 32 + p.val, by have := p.isLt; omega⟩ : Fin 128) q := by
    funext a; apply Fin.ext
    match a with
    | ⟨0, _⟩ => show win0_5.index t (0 : Fin 3) * 196 + 1 * k.val = k.val; omega
    | ⟨1, _⟩ => show win0_5.index t (1 : Fin 3) * 32 + 1 * p.val = t.val * 32 + p.val; omega
    | ⟨2, _⟩ => show win0_5.index t (2 : Fin 3) * 512 + 1 * q.val = q.val; omega
  show k0_pay1 (F := Ideal) (iblk m c 0 t) (iblk m c 1 t) (iblk m c 2 t) (iblk m c 3 t) (iblk m c 4 t) (ix3 k p q)
      = G m c (((cfg0.win 5).blk t).view.emb (ix3 k p q))
  rw [hemb]
  exact point_eq m c t k p q _ rfl

/-- An index of the output array is in point t's block iff each coordinate is in the block's range on its axis. -/
theorem mem_blk (t : Fin cfg0.N) (i : S196x128x512.Idx) :
    i ∈ ((cfg0.win 5).blk t).view.set ↔ ∀ a : Fin 3, win0_5.index t a * S196x32x512.size a ≤ (i a).val
      ∧ (i a).val < win0_5.index t a * S196x32x512.size a + S196x32x512.size a := by
  show i ∈ ((View.whole main_v4).slice (win0_5.rect t)).set ↔ _
  rw [View.set_slice_whole, Rect.mem_set_unit]
  exact Iff.rfl

/-- Every index is in the block of the point its sample falls in. -/
theorem cover (i : S196x128x512.Idx) : ∃ t : Fin cfg0.N, (cfg0.win 5).flush t = true ∧ i ∈ ((cfg0.win 5).blk t).view.set := by
  have hi0 : (i 0).val < 196 := (i 0).isLt
  have hi1 : (i 1).val < 128 := (i 1).isLt
  have hi2 : (i 2).val < 512 := (i 2).isLt
  have hN : (i 1).val / 32 < cfg0.N := by show _ < grid0.N; rw [N_0]; omega
  obtain ⟨-, -, -, -, -, -, -, -, -, -, -, e0, e1, e2⟩ := idx_facts ⟨(i 1).val / 32, hN⟩
  refine ⟨⟨(i 1).val / 32, hN⟩, flush0_5 _, ?_⟩
  rw [mem_blk]
  intro a
  match a with
  | ⟨0, _⟩ =>
    show win0_5.index ⟨(i 1).val / 32, hN⟩ (0 : Fin 3) * 196 ≤ (i 0).val
      ∧ (i 0).val < win0_5.index ⟨(i 1).val / 32, hN⟩ (0 : Fin 3) * 196 + 196
    omega
  | ⟨1, _⟩ =>
    show win0_5.index ⟨(i 1).val / 32, hN⟩ (1 : Fin 3) * 32 ≤ (i 1).val
      ∧ (i 1).val < win0_5.index ⟨(i 1).val / 32, hN⟩ (1 : Fin 3) * 32 + 32
    have e1' : win0_5.index ⟨(i 1).val / 32, hN⟩ (1 : Fin 3) = (i 1).val / 32 := e1
    omega
  | ⟨2, _⟩ =>
    show win0_5.index ⟨(i 1).val / 32, hN⟩ (2 : Fin 3) * 512 ≤ (i 2).val
      ∧ (i 2).val < win0_5.index ⟨(i 1).val / 32, hN⟩ (2 : Fin 3) * 512 + 512
    omega

/-- The region's output array after the run. -/
theorem final (c : Dev nD) : (dats m 0 c).arrAt 5 cfg0.N = G m c :=
  (dats m 0 c).arrAt_eq_of_cover 5 (G m c) (fun t _ => flushed_eq m c t) cover

/-! ## The operations after the region, and the run -/

/-- The program's result as the two operations after the region leave it: the region's output array unflattened and
    transposed back. -/
theorem tail_eq (c : Dev nD) : Pipeline.afterTail₀ cfgs (dats m) 0 (V0 m) [hostOps1] c main_v6
    = transpose S128x512x14x14 [2, 3, 0, 1] (shapeCast S14x14x128x512 (G m c) shapeCasts_S196x128x512_S14x14x128x512)
        transposes_S14x14x128x512_S128x512x14x14_2_3_0_1 := by
  unfold Pipeline.afterTail₀
  show StableHlo.after hostOps1 _ (Proc.devRef .tc main_v6) = _
  after_results
  have hw : Pipeline.withArrays (cfgs 0).spec c (V0 m c) (fun w => (dats m 0 c).arrAt w (cfgs 0).N)
      (Proc.devRef .tc main_v4) = G m c :=
    (Pipeline.withArrays_arr spec0 launch0.win.arr_inj c _ _ 5).trans (final m c)
  rw [hw]
  rfl

/-- The result at (n, ch, h, w): x there times the gate of (n, ch). -/
theorem result_apply (c : Dev nD) (n : Fin 128) (ch : Fin 512) (h w : Fin 14) :
    transpose S128x512x14x14 [2, 3, 0, 1] (shapeCast S14x14x128x512 (G m c) shapeCasts_S196x128x512_S14x14x128x512)
        transposes_S14x14x128x512_S128x512x14x14_2_3_0_1 (ix4 n ch h w)
      = out (xA m c) (w1A m c) (b1A m c) (w2A m c) (b2A m c) (ix4 n ch h w) := by
  have hk : h.val * 14 + w.val < 196 := by have := h.isLt; have := w.isLt; omega
  refine (transpose_apply _ _ _ (ix4 n ch h w) (ix4 h w n ch) (fun b => by
    match b with
    | ⟨0, _⟩ => rfl
    | ⟨1, _⟩ => rfl
    | ⟨2, _⟩ => rfl
    | ⟨3, _⟩ => rfl)).trans ?_
  refine (shapeCast_apply _ _ (ix4 h w n ch) (ix3 (⟨h.val * 14 + w.val, hk⟩ : Fin 196) n ch) ?_).trans ?_
  · rw [Shape.rowMajor_val_three, Shape.rowMajor_val_four]
    rfl
  · rw [out_apply]
    show xT m c (ix3 (⟨h.val * 14 + w.val, hk⟩ : Fin 196) n ch)
        * gate (fun c' => ∑ k' : Fin 196, xT m c (ix3 k' n c')) (w1T m c) (fun r => b1T m c (ix2 (0 : Fin 1) r))
          (w2T m c) (fun q => b2T m c (ix2 (0 : Fin 1) q)) ch = _
    have hP : (fun c' => ∑ k' : Fin 196, xT m c (ix3 k' n c')) = pool (xA m c) n :=
      funext fun c' => Finset.sum_congr rfl fun k' _ => xT_apply m c k' n c'
    have hb1 : (fun r => b1T m c (ix2 (0 : Fin 1) r)) = fun r => b1A m c (ix1 r) := funext fun r => b1T_apply m c r
    have hb2 : (fun q => b2T m c (ix2 (0 : Fin 1) q)) = fun q => b2A m c (ix1 q) := funext fun q => b2T_apply m c q
    rw [hP, hb1, hb2, xT_apply, prow_mk h w hk, pcol_mk h w hk, w1T_eq, w2T_eq]

theorem result_eq (c : Dev nD) : Pipeline.afterTail₀ cfgs (dats m) 0 (V0 m) [hostOps1] c main_v6
    = out (xA m c) (w1A m c) (b1A m c) (w2A m c) (b2A m c) :=
  (tail_eq m c).trans (funext fun i => by
    obtain ⟨n, ch, h, w, rfl⟩ : ∃ (n : Fin 128) (ch : Fin 512) (h w : Fin 14), i = ix4 n ch h w :=
      ⟨i 0, i 1, i 2, i 3, eq_ix4 i⟩
    exact result_apply m c n ch h w)

/-- Every weakly fair execution ends with the result array at the squeeze-and-excite function of the arguments, and the
    arguments as they were. -/
theorem run : θ_run defs (onTc (τ := τ) (main (F := Ideal))) ⟨m, fun _ => 0, ρ⟩ (fun r => ∀ c : Dev nD,
      r.2.mem ((c.tc : Thread nD τ).loc main_v6) = out (xA m c) (w1A m c) (b1A m c) (w2A m c) (b2A m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun r h c =>
    ⟨((h c).2 main_v6 (Pipeline.mem_restRefs_of main_v6 (by decide) (by decide))).trans (result_eq m c),
      ((h c).2 main_arg0 (Pipeline.mem_restRefs_of main_arg0 (by decide) (by decide))).trans (W_main_arg0 m (dats m) c),
      ((h c).1 1).trans (((dats m 0 c).arrAt_in 1 rfl _).trans ((A_eq m c 1).trans (V_main_arg1 m c))),
      ((h c).2 main_arg2 (Pipeline.mem_restRefs_of main_arg2 (by decide) (by decide))).trans (W_main_arg2 m (dats m) c),
      ((h c).1 3).trans (((dats m 0 c).arrAt_in 3 rfl _).trans ((A_eq m c 3).trans (V_main_arg3 m c))),
      ((h c).2 main_arg4 (Pipeline.mem_restRefs_of main_arg4 (by decide) (by decide))).trans (W_main_arg4 m (dats m) c)⟩)
    (run_main m ρ)

end Cert.KernelIdeal.HandValue

end
-- ==== Proof.RefBody.lean ====
/- The body of the reference's kernel at one index of its block.

   The block is laid out [sample, channel, position]: 8 samples, 512 channels, 256 positions (the last 60 of them
   padding).  The pooled sum of sample p, channel c is the sum along the trailing axis; the gate of (p, c) multiplies
   every position of that row. -/
import proofs.«120998_g2000007151489569_pallasbulk_1225_8_alg».proof.Proof.Gen.ReferenceIdeal.Skeleton
import proofs.«120998_g2000007151489569_pallasbulk_1225_8_alg».proof.Proof.BlockStages

noncomputable section

open scoped BigOperators

namespace Cert.ReferenceIdeal.Body

open Idealize.ShloMosaic Idealize.ShloMosaic.ValueIdx Cert.ReferenceIdeal Cert.ReferenceIdeal.Gen Cert.SqEx

/-- The stored value at ix3 p q k: the loaded entry times the gate computed from the block's own pooled sums and the
    weights and biases as loaded. -/
theorem pay_apply (x0 : Vec Ideal S8x512x256 .f32) (x1 : Vec Ideal S512x32 .f32) (x2 : Vec Ideal S1x32 .f32)
    (x3 : Vec Ideal S32x512 .f32) (x4 : Vec Ideal S1x512 .f32) (p : Fin 8) (q : Fin 512) (k : Fin 256) :
    k0_pay1 (F := Ideal) x0 x1 x2 x3 x4 (ix3 p q k)
      = x0 (ix3 p q k) * gate (fun c => ∑ k' : Fin 256, x0 (ix3 p c k')) x1 (fun r => x2 (ix2 (0 : Fin 1) r)) x3 (fun c => x4 (ix2 (0 : Fin 1) c)) q := by
  unfold k0_pay1
  dsimp only
  -- the identity casts of the loaded blocks drop
  simp only [shapeCast_self]
  -- the last product, then the gate's outer stage, at this index
  rw [mulf_apply, Cert.LeadAxis.broadcastTo_ab1_abc_apply, Cert.LeadAxis.shapeCast_ab_ab1_apply,
    gate_apply dot_S8x32_S32x512_S8x512_1_0_0_1_n_n rfl rfl rfl rfl rfl rfl]
  -- the hidden layer, the scale and the pooled sum, under the sums
  simp only [hidden_apply dot_S8x512_S512x32_S8x32_1_0_0_1_n_n rfl rfl rfl rfl rfl rfl, scaled_apply]
  unfold gate
  -- what is left differs only in the pooled sum: the reduction along the trailing axis is the sum over positions
  refine congrArg (fun z => x0 (ix3 p q k) * Ideal.logistic (z + x4 (ix2 (0 : Fin 1) q))) ?_
  refine Finset.sum_congr rfl fun r _ => ?_
  refine congrArg (fun z => max (z + x2 (ix2 (0 : Fin 1) r)) zeroW * x3 (ix2 r q)) ?_
  refine Finset.sum_congr rfl fun c _ => ?_
  exact congrArg (fun z => z * invHW * x1 (ix2 c r))
    (Cert.Keepdims.sum_last3_apply (φ := .f32) x0 0x00000000#32 Facts₀.reduces_S8x512x256_S8x512 (.inl rfl) rfl p c)

end Cert.ReferenceIdeal.Body

end
-- ==== Proof.RefValue.lean ====
/- What the reference program leaves in its result array, as the squeeze-and-excite function of its arguments.

   The reference flattens the plane of x[n, c, h, w] to one trailing axis of 196 positions and pads it with zeros to
   256; the region works on that array in sixteen blocks of 8 samples; afterwards the first 196 positions are cut out
   and unflattened.  So: (1) the array the region reads, at (n, c, k), is x at (n, c, row k, column k) for k < 196 and
   zero from 196 on; (2) every block of the region's output is the block of ONE whole-array function, the entry times
   the gate of its sample and channel, the pooled sum running over all 256 positions; the sixteen blocks tile the sample
   axis; (3) a sum over 256 positions of which the last 60 are zero is the sum over the first 196, so the gate is the
   gate of x's own pooled sums; the two operations after the region read the output back at (n, c, h, w) from
   position 14 h + w. -/
import proofs.«120998_g2000007151489569_pallasbulk_1225_8_alg».proof.Proof.Gen.ReferenceIdeal.Frame
import proofs.«120998_g2000007151489569_pallasbulk_1225_8_alg».proof.Proof.RefBody
import Idealize.ShloMosaic.Lib.Pipeline.Value
import Idealize.ShloMosaic.Lib.StableHlo.Run
import Idealize.ShloMosaic.Lib.ValueLayout
import Idealize.ShloMosaic.Lib.KernelVsHost

set_option maxRecDepth 16384

noncomputable section

open scoped BigOperators

namespace Cert.ReferenceIdeal.HandValue

open Idealize.ShloMosaic Idealize.ShloMosaic.TcCoe Idealize.ShloMosaic.ValueIdx Idealize.SL.Sem
open Cert.ReferenceIdeal Cert.ReferenceIdeal.Gen Cert.SqEx
open Idealize.ShloMosaic.Pipeline (Dat)

variable (m : (ℓ : Loc nD τ sig) → Buf (Elt Ideal) ℓ) (ρ : Dev nD → PrngReg)

/-! ## The arrays, by their literal types -/

/-- The five arguments as launched. -/
abbrev xA (c : Dev nD) : S128x512x14x14.Idx → EReal := m ((c : Thread nD τ).loc main_arg0)
abbrev w1A (c : Dev nD) : S512x32.Idx → EReal := m ((c : Thread nD τ).loc main_arg1)
abbrev b1A (c : Dev nD) : S32.Idx → EReal := m ((c : Thread nD τ).loc main_arg2)
abbrev w2A (c : Dev nD) : S32x512.Idx → EReal := m ((c : Thread nD τ).loc main_arg3)
abbrev b2A (c : Dev nD) : S512.Idx → EReal := m ((c : Thread nD τ).loc main_arg4)

/-- The arrays the region's windows stage, as the region finds them. -/
abbrev xP (c : Dev nD) : S128x512x256.Idx → EReal := V m c main_v1
abbrev w1T (c : Dev nD) : S512x32.Idx → EReal := V m c main_arg1
abbrev b1T (c : Dev nD) : S1x32.Idx → EReal := V m c main_v2
abbrev w2T (c : Dev nD) : S32x512.Idx → EReal := V m c main_arg3
abbrev b2T (c : Dev nD) : S1x512.Idx → EReal := V m c main_v3

/-! ## The operations before the region -/

theorem xP_eq (c : Dev nD) : xP m c = pad S128x512x256 ![0, 0, 0] ![0, 0, 60] ![0, 0, 0]
    (shapeCast S128x512x196 (xA m c) shapeCasts_S128x512x14x14_S128x512x196)
    (sitofp (F := Ideal) .f32 (constantI S_ 32 0#32)) pads_S128x512x196_S128x512x256_000_000_0600 h_S_ := by
  show StableHlo.after (List.flatten [hostOps0, hostOps0_1, hostOps0_2]) (fun b => m (c, b)) (Proc.devRef .tc main_v1) = _
  simp only [hostOps0, hostOps0_1, hostOps0_2, List.flatten_cons, List.flatten_nil, List.append_nil, List.cons_append,
    List.nil_append]
  after_results
  rfl

theorem b1T_eq (c : Dev nD) : b1T m c = shapeCast S1x32 (b1A m c) shapeCasts_S32_S1x32 := by
  show StableHlo.after (List.flatten [hostOps0, hostOps0_1, hostOps0_2]) (fun b => m (c, b)) (Proc.devRef .tc main_v2) = _
  simp only [hostOps0, hostOps0_1, hostOps0_2, List.flatten_cons, List.flatten_nil, List.append_nil, List.cons_append,
    List.nil_append]
  after_results
  rfl

theorem b2T_eq (c : Dev nD) : b2T m c = shapeCast S1x512 (b2A m c) shapeCasts_S512_S1x512 := by
  show StableHlo.after (List.flatten [hostOps0, hostOps0_1, hostOps0_2]) (fun b => m (c, b)) (Proc.devRef .tc main_v3) = _
  simp only [hostOps0, hostOps0_1, hostOps0_2, List.flatten_cons, List.flatten_nil, List.append_nil, List.cons_append,
    List.nil_append]
  after_results
  rfl

theorem b1T_apply (c : Dev nD) (r : Fin 32) : b1T m c (ix2 (0 : Fin 1) r) = b1A m c (ix1 r) := by
  rw [b1T_eq]; exact shapeCast_a_1a_apply _ _ _ _
theorem b2T_apply (c : Dev nD) (q : Fin 512) : b2T m c (ix2 (0 : Fin 1) q) = b2A m c (ix1 q) := by
  rw [b2T_eq]; exact shapeCast_a_1a_apply _ _ _ _

theorem w1T_eq (c : Dev nD) : w1T m c = w1A m c := V_main_arg1 m c
theorem w2T_eq (c : Dev nD) : w2T m c = w2A m c := V_main_arg3 m c

/-- The flattened plane at (n, ch, k) is x at (n, ch, row of k, column of k). -/
theorem flat_apply (c : Dev nD) (n : Fin 128) (ch : Fin 512) (k : Fin 196) :
    shapeCast S128x512x196 (xA m c) shapeCasts_S128x512x14x14_S128x512x196 (ix3 n ch k)
      = xA m c (ix4 n ch (prow k) (pcol k)) :=
  shapeCast_apply _ _ (ix3 n ch k) (ix4 n ch (prow k) (pcol k)) (by
    rw [Shape.rowMajor_val_four, Shape.rowMajor_val_three]
    have hk : (prow k).val * 14 + (pcol k).val = k.val := by
      show k.val / 14 * 14 + k.val % 14 = k.val
      omega
    show ((n.val * 512 + ch.val) * 14 + (prow k).val) * 14 + (pcol k).val = (n.val * 512 + ch.val) * 196 + k.val
    have := hk
    omega)

/-- The staged activation before position 196 is x. -/
theorem xP_apply_lt (c : Dev nD) (n : Fin 128) (ch : Fin 512) (k : Fin 256) (hk : k.val < 196) :
    xP m c (ix3 n ch k) = xA m c (ix4 n ch (prow ⟨k.val, hk⟩) (pcol ⟨k.val, hk⟩)) := by
  rw [xP_eq]
  refine (pad_apply_of_inside _ _ _ _ _ _ _ (ix3 n ch k) (ix3 n ch (⟨k.val, hk⟩ : Fin 196)) (fun a => by
    match a with
    | ⟨0, _⟩ => show n.val = 0 + n.val * (0 + 1); omega
    | ⟨1, _⟩ => show ch.val = 0 + ch.val * (0 + 1); omega
    | ⟨2, _⟩ => show k.val = 0 + k.val * (0 + 1); omega)).trans ?_
  exact flat_apply m c n ch ⟨k.val, hk⟩

/-- The staged activation from position 196 on is zero. -/
theorem xP_apply_ge (c : Dev nD) (n : Fin 128) (ch : Fin 512) (k : Fin 256) (hk : 196 ≤ k.val) :
    xP m c (ix3 n ch k) = 0 := by
  rw [xP_eq]
  refine (pad_apply_of_not_inside _ _ _ _ _ _ _ (ix3 n ch k) (2 : Fin 3) (fun h => by
    have h3 : (k.val - 0) / 1 < 196 := h.2.2
    omega)).trans ?_
  show ((((0#32 : BitVec 32).toInt : ℤ) : ℝ) : EReal) = 0
  simp

/-! ## The region's output array -/

/-- What the region's output array ends holding: each staged entry times the gate of its sample and channel, the pooled
    sum over all 256 staged positions. -/
def G (c : Dev nD) : S128x512x256.Idx → EReal := fun i =>
  xP m c i * gate (fun c' => ∑ k' : Fin 256, xP m c (ix3 (i 0) c' k')) (w1T m c) (fun r => b1T m c (ix2 (0 : Fin 1) r))
    (w2T m c) (fun q => b2T m c (ix2 (0 : Fin 1) q)) (i 1)

theorem hz3 : (![0, 0, 0] : Fin 3 → Nat) = fun _ => 0 := funext fun a => by fin_cases a <;> rfl
theorem hz2 : (![0, 0] : Fin 2 → Nat) = fun _ => 0 := funext fun a => by fin_cases a <;> rfl

/-- The printed index maps over the grid: the activation's and the output's block t is block t of the sample axis, the
    weights and biases are whole. -/
theorem idx_facts : ∀ t : Fin cfg0.N,
    win0_0.index t (0 : Fin 3) = t.val ∧ win0_0.index t (1 : Fin 3) = 0 ∧ win0_0.index t (2 : Fin 3) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 3) = t.val ∧ win0_5.index t (1 : Fin 3) = 0 ∧ win0_5.index t (2 : Fin 3) = 0 :=
  (by decide +kernel : ∀ t : Fin grid0.N, _)

theorem t_lt (t : Fin cfg0.N) : t.val < 16 := lt_of_lt_of_eq t.isLt N_0

/-- The activation's block at point t, at (p, q, k), is the staged array at sample 8 t + p. -/
theorem blk0_apply (c : Dev nD) (t : Fin cfg0.N) (p : Fin 8) (q : Fin 512) (k : Fin 256) (n : Fin 128)
    (hn : n.val = t.val * 8 + p.val) : iblk m c 0 t (ix3 p q k) = xP m c (ix3 n q k) := by
  obtain ⟨e0, e1, e2, -⟩ := idx_facts t
  show V m c main_v1 (((cfg0.win 0).blk t).view.emb (ix3 p q k)) = V m c main_v1 (ix3 n q k)
  refine congrArg _ (funext fun a => Fin.ext ?_)
  match a with
  | ⟨0, _⟩ => show win0_0.index t (0 : Fin 3) * 8 + 1 * p.val = n.val; omega
  | ⟨1, _⟩ => show win0_0.index t (1 : Fin 3) * 512 + 1 * q.val = q.val; omega
  | ⟨2, _⟩ => show win0_0.index t (2 : Fin 3) * 256 + 1 * k.val = k.val; omega

theorem blk1_eq (c : Dev nD) (t : Fin cfg0.N) : iblk m c 1 t = w1T m c := by
  obtain ⟨-, -, -, e0, e1, -⟩ := idx_facts t
  funext j
  show V m c main_arg1 (((cfg0.win 1).blk t).view.emb j) = V m c main_arg1 j
  refine congrArg _ (funext fun a => Fin.ext ?_)
  match a with
  | ⟨0, _⟩ => show win0_1.index t (0 : Fin 2) * 512 + 1 * (j 0).val = (j 0).val; omega
  | ⟨1, _⟩ => show win0_1.index t (1 : Fin 2) * 32 + 1 * (j 1).val = (j 1).val; omega

theorem blk2_eq (c : Dev nD) (t : Fin cfg0.N) : iblk m c 2 t = b1T m c := by
  obtain ⟨-, -, -, -, -, e0, e1, -⟩ := idx_facts t
  funext j
  show V m c main_v2 (((cfg0.win 2).blk t).view.emb j) = V m c main_v2 j
  refine congrArg _ (funext fun a => Fin.ext ?_)
  match a with
  | ⟨0, _⟩ => show win0_2.index t (0 : Fin 2) * 1 + 1 * (j 0).val = (j 0).val; omega
  | ⟨1, _⟩ => show win0_2.index t (1 : Fin 2) * 32 + 1 * (j 1).val = (j 1).val; omega

theorem blk3_eq (c : Dev nD) (t : Fin cfg0.N) : iblk m c 3 t = w2T m c := by
  obtain ⟨-, -, -, -, -, -, -, e0, e1, -⟩ := idx_facts t
  funext j
  show V m c main_arg3 (((cfg0.win 3).blk t).view.emb j) = V m c main_arg3 j
  refine congrArg _ (funext fun a => Fin.ext ?_)
  match a with
  | ⟨0, _⟩ => show win0_3.index t (0 : Fin 2) * 32 + 1 * (j 0).val = (j 0).val; omega
  | ⟨1, _⟩ => show win0_3.index t (1 : Fin 2) * 512 + 1 * (j 1).val = (j 1).val; omega

theorem blk4_eq (c : Dev nD) (t : Fin cfg0.N) : iblk m c 4 t = b2T m c := by
  obtain ⟨-, -, -, -, -, -, -, -, -, e0, e1, -⟩ := idx_facts t
  funext j
  show V m c main_v3 (((cfg0.win 4).blk t).view.emb j) = V m c main_v3 j
  refine congrArg _ (funext fun a => Fin.ext ?_)
  match a with
  | ⟨0, _⟩ => show win0_4.index t (0 : Fin 2) * 1 + 1 * (j 0).val = (j 0).val; omega
  | ⟨1, _⟩ => show win0_4.index t (1 : Fin 2) * 512 + 1 * (j 1).val = (j 1).val; omega

/-- The stored block at point t, at (p, q, k), is G at (8 t + p, q, k): the body's value with every loaded block read
    where it sits in its array. -/
theorem point_eq (c : Dev nD) (t : Fin cfg0.N) (p : Fin 8) (q : Fin 512) (k : Fin 256) (n : Fin 128)
    (hn : n.val = t.val * 8 + p.val) :
    k0_pay1 (F := Ideal) (iblk m c 0 t) (iblk m c 1 t) (iblk m c 2 t) (iblk m c 3 t) (iblk m c 4 t) (ix3 p q k)
      = G m c (ix3 n q k) := by
  refine (Body.pay_apply (iblk m c 0 t) (iblk m c 1 t) (iblk m c 2 t) (iblk m c 3 t) (iblk m c 4 t) p q k).trans ?_
  have a0 : ∀ (c' : Fin 512) (k' : Fin 256), iblk m c 0 t (ix3 p c' k') = xP m c (ix3 n c' k') :=
    fun c' k' => blk0_apply m c t p c' k' n hn
  show _ = xP m c (ix3 n q k) * gate (fun c' => ∑ k' : Fin 256, xP m c (ix3 n c' k')) (w1T m c)
    (fun r => b1T m c (ix2 (0 : Fin 1) r)) (w2T m c) (fun q => b2T m c (ix2 (0 : Fin 1) q)) q
  rw [blk1_eq m c t, blk2_eq m c t, blk3_eq m c t, blk4_eq m c t]
  simp only [a0]

/-- What point t writes back is block t of G. -/
theorem flushed_eq (c : Dev nD) (t : Fin cfg0.N) :
    (dats m 0 c).flushed 5 t = ((cfg0.win 5).blk t).view.read (Elt Ideal) (G m c) := by
  show (cfg0.win 5).cut (grid0.coords t) ((dats m 0 c).after 5 t) = _
  rw [after0_5]
  unfold out0_5
  rw [View.canon_unit_zero hz3]
  simp only [View.ld_unit_zero (S := S8x512x256) hz3, View.ld_unit_zero (S := S512x32) hz2,
    View.ld_unit_zero (S := S1x32) hz2, View.ld_unit_zero (S := S32x512) hz2, View.ld_unit_zero (S := S1x512) hz2]
  have ht := t_lt t
  obtain ⟨-, -, -, -, -, -, -, -, -, -, -, e0, e1, e2⟩ := idx_facts t
  funext j
  obtain ⟨p, q, k, rfl⟩ : ∃ (p : Fin 8) (q : Fin 512) (k : Fin 256), j = ix3 p q k := ⟨j 0, j 1, j 2, eq_ix3 j⟩
  have hemb : ((cfg0.win 5).blk t).view.emb (ix3 p q k)
      = ix3 (⟨t.val * 8 + p.val, by have := p.isLt; omega⟩ : Fin 128) q k := by
    funext a; apply Fin.ext
    match a with
    | ⟨0, _⟩ => show win0_5.index t (0 : Fin 3) * 8 + 1 * p.val = t.val * 8 + p.val; omega
    | ⟨1, _⟩ => show win0_5.index t (1 : Fin 3) * 512 + 1 * q.val = q.val; omega
    | ⟨2, _⟩ => show win0_5.index t (2 : Fin 3) * 256 + 1 * k.val = k.val; omega
  show k0_pay1 (F := Ideal) (iblk m c 0 t) (iblk m c 1 t) (iblk m c 2 t) (iblk m c 3 t) (iblk m c 4 t) (ix3 p q k)
      = G m c (((cfg0.win 5).blk t).view.emb (ix3 p q k))
  rw [hemb]
  exact point_eq m c t p q k _ rfl

/-- An index of the output array is in point t's block iff each coordinate is in the block's range on its axis. -/
theorem mem_blk (t : Fin cfg0.N) (i : S128x512x256.Idx) :
    i ∈ ((cfg0.win 5).blk t).view.set ↔ ∀ a : Fin 3, win0_5.index t a * S8x512x256.size a ≤ (i a).val
      ∧ (i a).val < win0_5.index t a * S8x512x256.size a + S8x512x256.size a := by
  show i ∈ ((View.whole main_v4).slice (win0_5.rect t)).set ↔ _
  rw [View.set_slice_whole, Rect.mem_set_unit]
  exact Iff.rfl

/-- Every index is in the block of the point its sample falls in. -/
theorem cover (i : S128x512x256.Idx) : ∃ t : Fin cfg0.N, (cfg0.win 5).flush t = true ∧ i ∈ ((cfg0.win 5).blk t).view.set := by
  have hi0 : (i 0).val < 128 := (i 0).isLt
  have hi1 : (i 1).val < 512 := (i 1).isLt
  have hi2 : (i 2).val < 256 := (i 2).isLt
  have hN : (i 0).val / 8 < cfg0.N := by show _ < grid0.N; rw [N_0]; omega
  obtain ⟨-, -, -, -, -, -, -, -, -, -, -, e0, e1, e2⟩ := idx_facts ⟨(i 0).val / 8, hN⟩
  refine ⟨⟨(i 0).val / 8, hN⟩, flush0_5 _, ?_⟩
  rw [mem_blk]
  intro a
  match a with
  | ⟨0, _⟩ =>
    show win0_5.index ⟨(i 0).val / 8, hN⟩ (0 : Fin 3) * 8 ≤ (i 0).val
      ∧ (i 0).val < win0_5.index ⟨(i 0).val / 8, hN⟩ (0 : Fin 3) * 8 + 8
    have e0' : win0_5.index ⟨(i 0).val / 8, hN⟩ (0 : Fin 3) = (i 0).val / 8 := e0
    omega
  | ⟨1, _⟩ =>
    show win0_5.index ⟨(i 0).val / 8, hN⟩ (1 : Fin 3) * 512 ≤ (i 1).val
      ∧ (i 1).val < win0_5.index ⟨(i 0).val / 8, hN⟩ (1 : Fin 3) * 512 + 512
    omega
  | ⟨2, _⟩ =>
    show win0_5.index ⟨(i 0).val / 8, hN⟩ (2 : Fin 3) * 256 ≤ (i 2).val
      ∧ (i 2).val < win0_5.index ⟨(i 0).val / 8, hN⟩ (2 : Fin 3) * 256 + 256
    omega

/-- The region's output array after the run. -/
theorem final (c : Dev nD) : (dats m 0 c).arrAt 5 cfg0.N = G m c :=
  (dats m 0 c).arrAt_eq_of_cover 5 (G m c) (fun t _ => flushed_eq m c t) cover

/-! ## The pooled sum over the padded axis -/

/-- The sum of the 256 staged positions of (n, c') is x's own pooled sum: the last 60 positions are zero. -/
theorem pool_eq (c : Dev nD) (n : Fin 128) (c' : Fin 512) :
    ∑ k' : Fin 256, xP m c (ix3 n c' k') = pool (xA m c) n c' := by
  rw [sum_256_eq_sum_196 (fun k' => xP m c (ix3 n c' k')) (fun k hk => xP_apply_ge m c n c' k hk)]
  exact Finset.sum_congr rfl fun k _ => xP_apply_lt m c n c' ⟨k.val, by have := k.isLt; omega⟩ k.isLt

/-! ## The operations after the region, and the run -/

/-- The program's result as the two operations after the region leave it: the first 196 positions of the region's
    output array, unflattened. -/
theorem tail_eq (c : Dev nD) : Pipeline.afterTail₀ cfgs (dats m) 0 (V0 m) [hostOps1] c main_v6
    = shapeCast S128x512x14x14
        (extractStridedSlice S128x512x196 ![0, 0, 0] (G m c) slices_S128x512x256_S128x512x196_0_0_0)
        shapeCasts_S128x512x196_S128x512x14x14 := by
  unfold Pipeline.afterTail₀
  show StableHlo.after hostOps1 _ (Proc.devRef .tc main_v6) = _
  after_results
  have hw : Pipeline.withArrays (cfgs 0).spec c (V0 m c) (fun w => (dats m 0 c).arrAt w (cfgs 0).N)
      (Proc.devRef .tc main_v4) = G m c :=
    (Pipeline.withArrays_arr spec0 launch0.win.arr_inj c _ _ 5).trans (final m c)
  rw [hw]
  rfl

/-- The result at (n, ch, h, w): x there times the gate of (n, ch). -/
theorem result_apply (c : Dev nD) (n : Fin 128) (ch : Fin 512) (h w : Fin 14) :
    shapeCast S128x512x14x14
        (extractStridedSlice S128x512x196 ![0, 0, 0] (G m c) slices_S128x512x256_S128x512x196_0_0_0)
        shapeCasts_S128x512x196_S128x512x14x14 (ix4 n ch h w)
      = out (xA m c) (w1A m c) (b1A m c) (w2A m c) (b2A m c) (ix4 n ch h w) := by
  have hk : h.val * 14 + w.val < 196 := by have := h.isLt; have := w.isLt; omega
  have hk' : h.val * 14 + w.val < 256 := by omega
  refine (shapeCast_apply _ _ (ix4 n ch h w) (ix3 n ch (⟨h.val * 14 + w.val, hk⟩ : Fin 196)) ?_).trans ?_
  · rw [Shape.rowMajor_val_three, Shape.rowMajor_val_four]
    show (n.val * 512 + ch.val) * 196 + (h.val * 14 + w.val) = ((n.val * 512 + ch.val) * 14 + h.val) * 14 + w.val
    omega
  refine (extractStridedSlice_apply _ _ _ (ix3 n ch (⟨h.val * 14 + w.val, hk⟩ : Fin 196))
    (ix3 n ch (⟨h.val * 14 + w.val, hk'⟩ : Fin 256)) (fun a => by
      match a with
      | ⟨0, _⟩ => show n.val = 0 + n.val; omega
      | ⟨1, _⟩ => show ch.val = 0 + ch.val; omega
      | ⟨2, _⟩ => show h.val * 14 + w.val = 0 + (h.val * 14 + w.val); omega)).trans ?_
  rw [out_apply]
  show xP m c (ix3 n ch (⟨h.val * 14 + w.val, hk'⟩ : Fin 256))
      * gate (fun c' => ∑ k' : Fin 256, xP m c (ix3 n c' k')) (w1T m c) (fun r => b1T m c (ix2 (0 : Fin 1) r))
        (w2T m c) (fun q => b2T m c (ix2 (0 : Fin 1) q)) ch = _
  have hP : (fun c' => ∑ k' : Fin 256, xP m c (ix3 n c' k')) = pool (xA m c) n := funext fun c' => pool_eq m c n c'
  have hb1 : (fun r => b1T m c (ix2 (0 : Fin 1) r)) = fun r => b1A m c (ix1 r) := funext fun r => b1T_apply m c r
  have hb2 : (fun q => b2T m c (ix2 (0 : Fin 1) q)) = fun q => b2A m c (ix1 q) := funext fun q => b2T_apply m c q
  rw [hP, hb1, hb2, xP_apply_lt m c n ch ⟨h.val * 14 + w.val, hk'⟩ hk, prow_mk h w hk, pcol_mk h w hk, w1T_eq, w2T_eq]

theorem result_eq (c : Dev nD) : Pipeline.afterTail₀ cfgs (dats m) 0 (V0 m) [hostOps1] c main_v6
    = out (xA m c) (w1A m c) (b1A m c) (w2A m c) (b2A m c) :=
  (tail_eq m c).trans (funext fun i => by
    obtain ⟨n, ch, h, w, rfl⟩ : ∃ (n : Fin 128) (ch : Fin 512) (h w : Fin 14), i = ix4 n ch h w :=
      ⟨i 0, i 1, i 2, i 3, eq_ix4 i⟩
    exact result_apply m c n ch h w)

/-- Every weakly fair execution ends with the result array at the squeeze-and-excite function of the arguments, and the
    arguments as they were. -/
theorem run : θ_run defs (onTc (τ := τ) (main (F := Ideal))) ⟨m, fun _ => 0, ρ⟩ (fun r => ∀ c : Dev nD,
      r.2.mem ((c.tc : Thread nD τ).loc main_v6) = out (xA m c) (w1A m c) (b1A m c) (w2A m c) (b2A m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun r h c =>
    ⟨((h c).2 main_v6 (Pipeline.mem_restRefs_of main_v6 (by decide) (by decide))).trans (result_eq m c),
      ((h c).2 main_arg0 (Pipeline.mem_restRefs_of main_arg0 (by decide) (by decide))).trans (W_main_arg0 m (dats m) c),
      ((h c).1 1).trans (((dats m 0 c).arrAt_in 1 rfl _).trans ((A_eq m c 1).trans (V_main_arg1 m c))),
      ((h c).2 main_arg2 (Pipeline.mem_restRefs_of main_arg2 (by decide) (by decide))).trans (W_main_arg2 m (dats m) c),
      ((h c).1 3).trans (((dats m 0 c).arrAt_in 3 rfl _).trans ((A_eq m c 3).trans (V_main_arg3 m c))),
      ((h c).2 main_arg4 (Pipeline.mem_restRefs_of main_arg4 (by decide) (by decide))).trans (W_main_arg4 m (dats m) c)⟩)
    (run_main m ρ)

end Cert.ReferenceIdeal.HandValue

end
-- ==== Proof.lean ====
/- The squeeze-and-excite block: a kernel working on x laid out [position, sample, channel] against a reference
   working on x laid out [sample, channel, position] with the position axis padded by zeros from 196 to 256.

   Both programs compute, at (n, c, h, w), x[n, c, h, w] times the gate of (n, c): the logistic function of a two-layer
   map of the 512 pooled sums of sample n, each pooled sum scaled by the same binary constant.  The kernel sums the 196
   positions of a plane down its leading axis; the reference sums 256 positions along its trailing axis, the last 60 of
   them zero, and a sum is unchanged by added zeros on the extended reals.  Products into a zero accumulator, the bias
   rows, the clamp and the logistic function are the same operations on both sides, so the two results are one function
   of the arguments (Proof/Spec.lean); no finiteness of the inputs is used.

   The three frames are the generated ones; the idealization rewrote nothing, so there is nothing to preserve. -/
import proofs.«120998_g2000007151489569_pallasbulk_1225_8_alg».proof.Defs
import proofs.«120998_g2000007151489569_pallasbulk_1225_8_alg».proof.Proof.Gen.Kernel
import proofs.«120998_g2000007151489569_pallasbulk_1225_8_alg».proof.Proof.Gen.Kernel.Skeleton
import proofs.«120998_g2000007151489569_pallasbulk_1225_8_alg».proof.Proof.Gen.Kernel.Launch
import proofs.«120998_g2000007151489569_pallasbulk_1225_8_alg».proof.Proof.Gen.Kernel.Points
import proofs.«120998_g2000007151489569_pallasbulk_1225_8_alg».proof.Proof.Gen.Kernel.Frame
import proofs.«120998_g2000007151489569_pallasbulk_1225_8_alg».proof.Proof.Gen.KernelIdeal
import proofs.«120998_g2000007151489569_pallasbulk_1225_8_alg».proof.Proof.Gen.KernelIdeal.Skeleton
import proofs.«120998_g2000007151489569_pallasbulk_1225_8_alg».proof.Proof.Gen.KernelIdeal.Launch
import proofs.«120998_g2000007151489569_pallasbulk_1225_8_alg».proof.Proof.Gen.KernelIdeal.Points
import proofs.«120998_g2000007151489569_pallasbulk_1225_8_alg».proof.Proof.Gen.KernelIdeal.Frame
import proofs.«120998_g2000007151489569_pallasbulk_1225_8_alg».proof.Proof.Gen.ReferenceIdeal
import proofs.«120998_g2000007151489569_pallasbulk_1225_8_alg».proof.Proof.Gen.ReferenceIdeal.Skeleton
import proofs.«120998_g2000007151489569_pallasbulk_1225_8_alg».proof.Proof.Gen.ReferenceIdeal.Launch
import proofs.«120998_g2000007151489569_pallasbulk_1225_8_alg».proof.Proof.Gen.ReferenceIdeal.Points
import proofs.«120998_g2000007151489569_pallasbulk_1225_8_alg».proof.Proof.Gen.ReferenceIdeal.Frame
import proofs.«120998_g2000007151489569_pallasbulk_1225_8_alg».proof.Proof.Gen.Pre_finite_inputs
import proofs.«120998_g2000007151489569_pallasbulk_1225_8_alg».proof.Proof.KernelValue
import proofs.«120998_g2000007151489569_pallasbulk_1225_8_alg».proof.Proof.RefValue
import Idealize.ShloMosaic.Adequacy
import Idealize.ShloMosaic.Init

noncomputable section

namespace Cert.Proof

open Idealize.ShloMosaic Idealize.SL.Sem

theorem frame_k : Cert.frame_Kernel := fun m ρ _ => Cert.Kernel.Gen.frame m ρ
theorem frame_ki : Cert.frame_KernelIdeal := fun m ρ _ => Cert.KernelIdeal.Gen.frame m ρ
theorem frame_ri : Cert.frame_ReferenceIdeal := fun m ρ _ => Cert.ReferenceIdeal.Gen.frame m ρ

/-- Run from memories that agree on the five arguments, both programs end with their result array at the
    squeeze-and-excite function of those arguments. -/
theorem algebraic : Cert.algebraic_KernelIdeal_ReferenceIdeal := by
  intro m ρ m' ρ' _ hagree
  refine ⟨fun c => Cert.SqEx.out (Cert.KernelIdeal.HandValue.xA m c) (Cert.KernelIdeal.HandValue.w1A m c)
    (Cert.KernelIdeal.HandValue.b1A m c) (Cert.KernelIdeal.HandValue.w2A m c) (Cert.KernelIdeal.HandValue.b2A m c),
    Cert.KernelIdeal.HandValue.run m ρ, ?_⟩
  refine (θ_run Cert.ReferenceIdeal.defs _ _).mono (fun r h c => ⟨(h c).1.trans ?_, (h c).2⟩)
    (Cert.ReferenceIdeal.HandValue.run m' ρ')
  have e0 : Cert.ReferenceIdeal.HandValue.xA m' c = Cert.KernelIdeal.HandValue.xA m c := (hagree c).1
  have e1 : Cert.ReferenceIdeal.HandValue.w1A m' c = Cert.KernelIdeal.HandValue.w1A m c := (hagree c).2.1
  have e2 : Cert.ReferenceIdeal.HandValue.b1A m' c = Cert.KernelIdeal.HandValue.b1A m c := (hagree c).2.2.1
  have e3 : Cert.ReferenceIdeal.HandValue.w2A m' c = Cert.KernelIdeal.HandValue.w2A m c := (hagree c).2.2.2.1
  have e4 : Cert.ReferenceIdeal.HandValue.b2A m' c = Cert.KernelIdeal.HandValue.b2A m c := (hagree c).2.2.2.2
  show Cert.SqEx.out (Cert.ReferenceIdeal.HandValue.xA m' c) (Cert.ReferenceIdeal.HandValue.w1A m' c)
      (Cert.ReferenceIdeal.HandValue.b1A m' c) (Cert.ReferenceIdeal.HandValue.w2A m' c) (Cert.ReferenceIdeal.HandValue.b2A m' c)
    = Cert.SqEx.out (Cert.KernelIdeal.HandValue.xA m c) (Cert.KernelIdeal.HandValue.w1A m c)
      (Cert.KernelIdeal.HandValue.b1A m c) (Cert.KernelIdeal.HandValue.w2A m c) (Cert.KernelIdeal.HandValue.b2A m c)
  rw [e0, e1, e2, e3, e4]

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
